-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x32x32 : Shape := ⟨4, ![16, 256, 32, 32]⟩
abbrev S2048x256 : Shape := ⟨2, ![2048, 256]⟩
abbrev S_ : Shape := ⟨0, ![]⟩

class Facts : Prop where
  bcast_S_S16x256x32x32 : S_.BroadcastsInDim S16x256x32x32 (![] : Fin 0 → Fin S16x256x32x32.rank)
  reducesTo_S16x256x32x32_S_d0_1_2_3 : S16x256x32x32.ReducesTo [0, 1, 2, 3] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S16x256x32x32 .f32) (main_arg1 : FVec F S2048x256 .f32) : IVec S_ 1 :=
  let main_v0 : FVec F S16x256x32x32 .f32 := Host.absf main_arg0
  let main_cst : FVec F S_ .f32 := constant S_ .f32 0x7F800000#32
  let main_v1 : FVec F S16x256x32x32 .f32 := broadcastInDim S16x256x32x32 ![] bcast_S_S16x256x32x32 main_cst
  let main_v2 : IVec S16x256x32x32 1 := cmpf .olt main_v0 main_v1
  let main_c : IVec S_ 1 := constantI S_ 1 1#1
  let main_v3 : IVec S_ 1 := (fun x v => Host.reduce IntOp.andi x v reducesTo_S16x256x32x32_S_d0_1_2_3 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S16x256x32x32 : Shape := ⟨4, ![16, 256, 32, 32]⟩
abbrev S2048x256 : Shape := ⟨2, ![2048, 256]⟩
abbrev S16x32x32x256 : Shape := ⟨4, ![16, 32, 32, 256]⟩
abbrev S16384x256 : Shape := ⟨2, ![16384, 256]⟩
abbrev S16384x2048 : Shape := ⟨2, ![16384, 2048]⟩
abbrev S1x2048 : Shape := ⟨2, ![1, 2048]⟩
abbrev S1024x256 : Shape := ⟨2, ![1024, 256]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S16x256x32x32, .f32⟩
  | .hbm, ⟨1, _⟩ => ⟨S2048x256, .f32⟩
  | .hbm, ⟨2, _⟩ => ⟨S16x32x32x256, .f32⟩
  | .hbm, ⟨3, _⟩ => ⟨S16384x256, .f32⟩
  | .hbm, ⟨4, _⟩ => ⟨S16384x2048, .f32⟩
  | .hbm, ⟨5, _⟩ => ⟨S1x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16x256x32x32_S16x32x32x256_0_2_3_1 : S16x256x32x32.Transposes [0, 2, 3, 1] S16x32x32x256
  shapeCasts_S16x32x32x256_S16384x256 : S16x32x32x256.ShapeCasts S16384x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  reduces_S1024x256_S1024 : S1024x256.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reducesTo_S1x2048_S_d0_1 : S1x2048.ReducesTo [0, 1] S_
  h_S_ : 0 < S_.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S2048x256.size a
  hwx0_1 : ∀ i : grid0.Coords, EltTy.bits .f32 = 32 ∨ (Rect.block (s := S2048x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x2048.size a
  hwx0_2 : ∀ i : grid0.Coords, EltTy.bits .f32 = 32 ∨ (Rect.block (s := S16384x2048) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x2048.size a
  hwx0_3 : ∀ i : grid0.Coords, EltTy.bits .f32 = 32 ∨ (Rect.block (s := S1x2048) S1x1024.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S16x256x32x32 : Shape := ⟨4, ![16, 256, 32, 32]⟩
abbrev S2048x256 : Shape := ⟨2, ![2048, 256]⟩
abbrev S16x32x32x256 : Shape := ⟨4, ![16, 32, 32, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S2048 : Shape := ⟨1, ![2048]⟩
abbrev S16384x2048 : Shape := ⟨2, ![16384, 2048]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S2048x256, .f32⟩
  | .hbm, ⟨2, _⟩ => ⟨S16x32x32x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S2048x256, .f32⟩
  | .hbm, ⟨9, _⟩ => ⟨S_, .f32⟩
  | .hbm, ⟨10, _⟩ => ⟨S2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  transposes_S16x256x32x32_S16x32x32x256_0_2_3_1 : S16x256x32x32.Transposes [0, 2, 3, 1] S16x32x32x256
  shapeCasts_S16x32x32x256_S16384x256 : S16x32x32x256.ShapeCasts S16384x256
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S2048x256_S2048_d1 : S2048x256.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  reducesTo_S16384x2048_S2048_d0 : S16384x2048.ReducesTo [0] S2048
  reducesTo_S2048_S_d0 : S2048.ReducesTo [0] S_
  dot_S16384x256_S2048x256_S16384x2048_1_1_0_0_n_n_wf : DotDims.WF S16384x256 S2048x256 S16384x2048 [1] [1] [0] [0] [] []

variable [Facts₀]

def dot_S16384x256_S2048x256_S16384x2048_1_1_0_0_n_n : DotDims S16384x256 S2048x256 S16384x2048 where
  lhsContracting := [1]
  rhsContracting := [1]
  lhsNonContracting := [0]
  rhsNonContracting := [0]
  lhsBatch := []
  rhsBatch := []
  wf := dot_S16384x256_S2048x256_S16384x2048_1_1_0_0_n_n_wf

class Facts : Prop extends Facts₀ where

variable [Facts]
-- ==== Proof.KBody.lean ====
/-
  The frame of the program's one pipeline: the kernel body run at every grid point, with the proof data that says what
  each staging buffer and the scratch row hold after each point.

  The grid is 2 x 16: point t has column block t / 16 and row tile t % 16.  At every point the body writes the whole
  1024 x 1024 distance tile.  The scratch row carries the running column minimum of a column block: the first tile of
  a block (t % 16 = 0) stores its own column minima, each later tile (t % 16 > 0) stores the entrywise minimum of what
  the scratch held and its own column minima, and the last tile (t % 16 = 15) copies the scratch into the second
  output's buffer, which is written back only there and is left untouched at every other point.
-/
import proofs.«107057_j38946763440842_1_alg».proof.Proof.Gen.Kernel.Launch
import proofs.«107057_j38946763440842_1_alg».proof.Proof.Gen.Kernel.Skeleton
import proofs.«107057_j38946763440842_1_alg».proof.Proof.Gen.Kernel.Points
import proofs.«107057_j38946763440842_1_alg».proof.Proof.Gen.Kernel.Frame
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions of the body, as functions of the grid point -/

/-- The row tile is the first of its column block. -/
abbrev condFirst (i : grid0.Coords) : Prop :=
  (Scalar.cmpi .ne (Scalar.extui (Scalar.cmpi .eq (BitVec.ofNat 32 (i 1).val) 0#32)) 0#32) = 1#1
/-- The row tile is not the first. -/
abbrev condLater (i : grid0.Coords) : Prop :=
  (Scalar.cmpi .ne (Scalar.extui (Scalar.cmpi .sgt (BitVec.ofNat 32 (i 1).val) 0#32)) 0#32) = 1#1
/-- The row tile is the last (the sixteenth). -/
abbrev condLast (i : grid0.Coords) : Prop := k0_cond3 i = 1#1

theorem hcondFirst : ∀ t : Fin cfg0.N, condFirst (grid0.coords t) ↔ t.val % 16 = 0 :=
  (by decide +kernel : ∀ t : Fin grid0.N, condFirst (grid0.coords t) ↔ t.val % 16 = 0)
theorem hcondLater : ∀ t : Fin cfg0.N, condLater (grid0.coords t) ↔ ¬ t.val % 16 = 0 :=
  (by decide +kernel : ∀ t : Fin grid0.N, condLater (grid0.coords t) ↔ ¬ t.val % 16 = 0)
theorem hcondLast : ∀ t : Fin cfg0.N, condLast (grid0.coords t) ↔ t.val % 16 = 15 :=
  (by decide +kernel : ∀ t : Fin grid0.N, condLast (grid0.coords t) ↔ t.val % 16 = 15)

/-- The inputs and the distance tile are stored into at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The second output is stored into exactly at the last tile of a column block, and written back exactly there. -/
theorem live3 : ∀ t : Fin cfg0.N, t.val % 16 = 15 → cfg0.idle 3 (grid0.coords t) = false := by decide +kernel
theorem idle3 : ∀ t : Fin cfg0.N, ¬ t.val % 16 = 15 → cfg0.idle 3 (grid0.coords t) = true := by decide +kernel
theorem noFlush3 : ∀ t : Fin cfg0.N, ¬ t.val % 16 = 15 → (cfg0.win 3).flush t = false := by decide +kernel

/-! ## A whole store read back -/

theorem zeros2 : (![0, 0] : Fin 2 → Nat) = fun _ => 0 := by
  funext a; fin_cases a <;> rfl

/-- One store of `w` through the whole-shape rectangle leaves `w`, whatever the buffer held. -/
theorem read_whole_store {κ : Kind} {sp : Space} {S : Shape} {e : EltTy} (hr : S.rank = 2 → True)
    (v : View sig κ sp S e) (f : v.ty.Contents (Elt F)) {off : Fin S.rank → Nat} (h : off = fun _ => 0)
    (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-! ## The body's run, case by case -/

set_option maxHeartbeats 1000000 in
/-- First tile of a column block: the distance tile is stored whole, the scratch row, whatever it held, is
    overwritten with the tile's column minima; the second output's buffer is not touched. -/
theorem runFirst (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1024 .f32) (harg4 : arg4.IsWhole) (arg5 : Memref sig .tc .vmem S1x1024 .f32) (harg5 : arg5.IsWhole)
    (arg6 : Memref sig .tc .vmem S1x1024 .f32) (harg6 : arg6.IsWhole)
    (h1 : condFirst i) (h2 : ¬condLater i) (h3 : ¬condLast i)
    (x0 : Vec F S1024x256 .f32) (x1 : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg6 fullShare d)
        ∗ (iprop(owns (c : Thread nD τ) arg2 fullShare x0 ∗ owns (c : Thread nD τ) arg3 fullShare x1 ∗ owns (c : Thread nD τ) arg4 fullShare (k0_pay1 x0 x1)
            ∗ owns (c : Thread nD τ) arg6 fullShare (k0_pay3 x0 x1)) -∗ K ⟨⟩))
      ⊢ wp frame (wpE (defs₀ (F := F)) Variants.none c none) E (cc0__vq_kernel i arg2 harg2 arg3 harg3 arg4 harg4 arg5 harg5 arg6 harg6) K := by
  simp only [cc0__vq_kernel_eq_skeleton]; unfold cc0__vq_kernel_skel
  unfold owns
  iintro ⟨⟨%f0, %hf0, H0⟩, ⟨%f1, %hf1, H1⟩, ⟨%d4, %f4, -, H4⟩, ⟨%ds, %fs, -, HS⟩, Hk⟩
  subst hf0 hf1
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [read_whole_store (fun _ => trivial) _ _ zeros2]
    simp only [View.readAt_eq_ld, Rect.toLoadRect, View.ld_unit_zero (S := S1024x256) zeros2]
  iexists _; isplitr
  swap; · iexact HS
  ipureintro
  rw [read_whole_store (fun _ => trivial) _ _ zeros2]
  simp only [View.readAt_eq_ld, Rect.toLoadRect, View.ld_unit_zero (S := S1024x256) zeros2]

set_option maxHeartbeats 1000000 in
/-- A later tile, not the last: the distance tile is stored whole, the scratch row takes the entrywise minimum of what
    it held and the tile's column minima; the second output's buffer is not touched. -/
theorem runLater (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1024 .f32) (harg4 : arg4.IsWhole) (arg5 : Memref sig .tc .vmem S1x1024 .f32) (harg5 : arg5.IsWhole)
    (arg6 : Memref sig .tc .vmem S1x1024 .f32) (harg6 : arg6.IsWhole)
    (h1 : ¬condFirst i) (h2 : condLater i) (h3 : ¬condLast i)
    (x0 : Vec F S1024x256 .f32) (x1 : Vec F S1024x256 .f32) (xs : Vec F S1x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg6 fullShare xs
        ∗ (iprop(owns (c : Thread nD τ) arg2 fullShare x0 ∗ owns (c : Thread nD τ) arg3 fullShare x1 ∗ owns (c : Thread nD τ) arg4 fullShare (k0_pay1 x0 x1)
            ∗ owns (c : Thread nD τ) arg6 fullShare (k0_pay4 x0 x1 xs)) -∗ K ⟨⟩))
      ⊢ wp frame (wpE (defs₀ (F := F)) Variants.none c none) E (cc0__vq_kernel i arg2 harg2 arg3 harg3 arg4 harg4 arg5 harg5 arg6 harg6) K := by
  simp only [cc0__vq_kernel_eq_skeleton]; unfold cc0__vq_kernel_skel
  unfold owns
  iintro ⟨⟨%f0, %hf0, H0⟩, ⟨%f1, %hf1, H1⟩, ⟨%d4, %f4, -, H4⟩, ⟨%fs, %hfs, HS⟩, Hk⟩
  subst hf0 hf1 hfs
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [read_whole_store (fun _ => trivial) _ _ zeros2]
    simp only [View.readAt_eq_ld, Rect.toLoadRect, View.ld_unit_zero (S := S1024x256) zeros2]
  iexists _; isplitr
  swap; · iexact HS
  ipureintro
  rw [read_whole_store (fun _ => trivial) _ _ zeros2]
  simp only [View.readAt_eq_ld, Rect.toLoadRect, View.ld_unit_zero (S := S1024x256) zeros2, View.ld_unit_zero (S := S1x1024) zeros2]

set_option maxHeartbeats 1000000 in
/-- The last tile of a column block: as a later tile, and the updated scratch row is also stored, whole, into the
    second output's buffer. -/
theorem runLast (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1024 .f32) (harg4 : arg4.IsWhole) (arg5 : Memref sig .tc .vmem S1x1024 .f32) (harg5 : arg5.IsWhole)
    (arg6 : Memref sig .tc .vmem S1x1024 .f32) (harg6 : arg6.IsWhole)
    (h1 : ¬condFirst i) (h2 : condLater i) (h3 : condLast i)
    (x0 : Vec F S1024x256 .f32) (x1 : Vec F S1024x256 .f32) (xs : Vec F S1x1024 .f32) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare (k0_pay1 x0 x1)
            ∗ owns (c : Thread nD τ) arg5 fullShare (k0_pay4 x0 x1 xs) ∗ owns (c : Thread nD τ) arg6 fullShare (k0_pay4 x0 x1 xs)) -∗ K ⟨⟩))
      ⊢ wp frame (wpE (defs₀ (F := F)) Variants.none c none) E (cc0__vq_kernel i arg2 harg2 arg3 harg3 arg4 harg4 arg5 harg5 arg6 harg6) K := by
  simp only [cc0__vq_kernel_eq_skeleton]; unfold cc0__vq_kernel_skel
  unfold owns
  iintro ⟨⟨%f0, %hf0, H0⟩, ⟨%f1, %hf1, H1⟩, ⟨%d4, %f4, -, H4⟩, ⟨%d5, %f5, -, H5⟩, ⟨%fs, %hfs, HS⟩, Hk⟩
  subst hf0 hf1 hfs
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [read_whole_store (fun _ => trivial) _ _ zeros2]
    simp only [View.readAt_eq_ld, Rect.toLoadRect, View.ld_unit_zero (S := S1024x256) zeros2]
  isplitl [H5]
  · iexists _; isplitr
    swap; · iexact H5
    ipureintro
    sl_unfold_words
    rw [read_whole_store (fun _ => trivial) _ _ zeros2]
    simp only [View.readAt_eq_ld, Rect.toLoadRect, View.ld_unit_zero (S := S1024x256) zeros2, View.ld_unit_zero (S := S1x1024) zeros2,
      View.readCov_unit_zero (S := S1x1024) _ zeros2]
  iexists _; isplitr
  swap; · iexact HS
  ipureintro
  sl_unfold_words
  rw [read_whole_store (fun _ => trivial) _ _ zeros2]
  simp only [View.readAt_eq_ld, Rect.toLoadRect, View.ld_unit_zero (S := S1024x256) zeros2, View.ld_unit_zero (S := S1x1024) zeros2]

/-! ## What the scratch row holds after each point -/

/-- The first window's block at a point, at its literal type: 1024 rows of the flattened input. -/
abbrev zb (c : Dev nD) (t : Fin cfg0.N) : Vec F S1024x256 .f32 := iblk m c 0 t
/-- The second window's block at a point, at its literal type: 1024 codes. -/
abbrev eb (c : Dev nD) (t : Fin cfg0.N) : Vec F S1024x256 .f32 := iblk m c 1 t

/-- The scratch row after the body at position `n`: at the first tile of a column block the tile's column minima, at a
    later tile the entrywise minimum of what the point before left and the tile's column minima. -/
def accAt (c : Dev nD) : (n : ℕ) → n < cfg0.N → Vec F S1x1024 .f32
  | 0, hn => k0_pay3 (zb m c ⟨0, hn⟩) (eb m c ⟨0, hn⟩)
  | n + 1, hn =>
    if (n + 1) % 16 = 0 then k0_pay3 (zb m c ⟨n + 1, hn⟩) (eb m c ⟨n + 1, hn⟩)
    else k0_pay4 (zb m c ⟨n + 1, hn⟩) (eb m c ⟨n + 1, hn⟩) (accAt c n (Nat.lt_of_succ_lt hn))

theorem accAt_first (c : Dev nD) (t : Fin cfg0.N) (h : t.val % 16 = 0) :
    accAt m c t.val t.isLt = k0_pay3 (zb m c t) (eb m c t) := by
  obtain ⟨n, hn⟩ := t
  cases n with
  | zero => rfl
  | succ n => exact if_pos h

theorem accAt_later (c : Dev nD) (t : Fin cfg0.N) (h : ¬ t.val % 16 = 0) :
    accAt m c t.val t.isLt
      = k0_pay4 (zb m c t) (eb m c t) (accAt m c (t.val - 1) (Nat.lt_of_le_of_lt (Nat.sub_le _ _) t.isLt)) := by
  obtain ⟨n, hn⟩ := t
  cases n with
  | zero => exact absurd (Nat.zero_mod _) h
  | succ n => exact if_neg h

/-! ## The region's invariant: the scratch row at what the point before left -/

/-- The scratch operand: a whole scoped buffer of the kernel's own. -/
abbrev scM : Memref sig .tc .vmem S1x1024 .f32 := Memref.whole cc0_scratch0

/-- What the launch hands the region beside the windows: the scratch row at some contents, the generator register at
    some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before position `n`: before the first point what the launch hands over; afterwards the scratch row at what the
    point before left in it. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The proof data of the one pipeline on core `c`: the arrays as the region finds them; after the body at point `t`
    each input's buffer at its block, the first output's at the distance tile of the two blocks, the second output's
    at the scratch row (stored there at the last tile of a column block; at the other points the buffer is handed back
    as found and this entry is not consulted); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (zb m c t) (eb m c t)
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay1 (zb m c t) (eb m c t) := by dsimp only [dats]
theorem after3 (c : Dev nD) (t : Fin cfg0.N) : (dats m 0 c).after 3 t = accAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation, at a generic point -/

/-- Each window's current staging memref at point `t`, spelled as the pipeline passes it. -/
abbrev ms0 (t : Fin cfg0.N) : Memref sig .tc .vmem S1024x256 .f32 := win0_0.stage (cfg0.slots t 0)
abbrev ms1 (t : Fin cfg0.N) : Memref sig .tc .vmem S1024x256 .f32 := win0_1.stage (cfg0.slots t 1)
abbrev ms2 (t : Fin cfg0.N) : Memref sig .tc .vmem S1024x1024 .f32 := win0_2.stage (cfg0.slots t 2)
abbrev ms3 (t : Fin cfg0.N) : Memref sig .tc .vmem S1x1024 .f32 := win0_3.stage (cfg0.slots t 3)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (k0_pay1 (zb m c t) (eb m c t)) := by
  unfold Dat.leavesExact; rw [live2 t, after2]
theorem leaves3_last (c : Dev nD) (t : Fin cfg0.N) (h : t.val % 16 = 15) :
    (dats m 0 c).leavesExact 3 t = owns (c : Thread nD τ) (ms3 t) fullShare (accAt m c t.val t.isLt) := by
  unfold Dat.leavesExact; rw [live3 t h, after3]

set_option maxHeartbeats 1600000 in
/-- The body at any point: the inputs' buffers hold their blocks; the point's position in its column block says which
    case runs; the invariant hands over the scratch row (at anything before the first point, else at what the point
    before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 32 := lt_of_lt_of_eq t.isLt (show cfg0.N = 32 from N_0)
  by_cases h0 : t.val % 16 = 0
  · have h15 : ¬ t.val % 16 = 15 := by omega
    rw [Dat.leavesExact_idle (dats m 0 c) 3 t (idle3 t h15) (noFlush3 t h15), accAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, H3⟩
      iapply (runFirst c Set.univ (grid0.coords t) _ _ _ _ _ _ _ _ _ _ ((hcondFirst t).mpr h0)
        (fun h => (hcondLater t).mp h h0) (fun h => h15 ((hcondLast t).mp h)) (iblk m c 0 t) (iblk m c 1 t) _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [PhiS_castSucc m c t, PhiS_pos m c _ _ hz]
      iintro ⟨⟨HS, Hg⟩, Ho, ⟨%d0, H0⟩, ⟨%d1, H1⟩, ⟨%d2, H2⟩, H3⟩
      iapply (runFirst c Set.univ (grid0.coords t) _ _ _ _ _ _ _ _ _ _ ((hcondFirst t).mpr h0)
        (fun h => (hcondLater t).mp h h0) (fun h => h15 ((hcondLast t).mp h)) (iblk m c 0 t) (iblk m c 1 t) _)
      isplitl [H0]; · iexact H0
      isplitl [H1]; · iexact H1
      isplitl [H2]; · iexists _; iexact H2
      isplitl [HS]; · iexists _; iexact HS
      iintro ⟨H0, H1, H2, HS⟩
      isplitl [HS Hg]
      · isplitl [HS]; · iexact HS
        iexact Hg
      isplitl [Ho]; · iexact Ho
      isplitl [H0]; · iexact H0
      isplitl [H1]; · iexact H1
      isplitl [H2]; · iexact H2
      iexact H3
  · have hz : t.val ≠ 0 := fun h => h0 (by rw [h])
    rw [PhiS_castSucc m c t, PhiS_pos m c _ _ hz, accAt_later m c t h0]
    by_cases h15 : t.val % 16 = 15
    · rw [leaves3_last m c t h15, accAt_later m c t h0]
      iintro ⟨⟨HS, Hg⟩, Ho, ⟨%d0, H0⟩, ⟨%d1, H1⟩, ⟨%d2, H2⟩, ⟨%d3, H3⟩⟩
      iapply (runLast c Set.univ (grid0.coords t) _ _ _ _ _ _ _ _ _ _ (fun h => h0 ((hcondFirst t).mp h))
        ((hcondLater t).mpr h0) ((hcondLast t).mpr h15) (iblk m c 0 t) (iblk m c 1 t) _ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 3 t (idle3 t h15) (noFlush3 t h15)]
      iintro ⟨⟨HS, Hg⟩, Ho, ⟨%d0, H0⟩, ⟨%d1, H1⟩, ⟨%d2, H2⟩, H3⟩
      iapply (runLater c Set.univ (grid0.coords t) _ _ _ _ _ _ _ _ _ _ (fun h => h0 ((hcondFirst t).mp h))
        ((hcondLater t).mpr h0) (fun h => h15 ((hcondLast t).mp h)) (iblk m c 0 t) (iblk m c 1 t) _ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch row's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run and the frame -/

set_option backward.isDefEq.respectTransparency.types false in
/-- From any memory with zero counters every weakly fair execution of @main terminates, and every final state has each
    array of the pipeline at what the proof data computes and every other unscoped buffer as the lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIBody.lean ====
/-
  The frame of the program's one pipeline: the kernel body run at every grid point, with the proof data that says what
  each staging buffer and the scratch row hold after each point.

  The grid is 2 x 16: point t has column block t / 16 and row tile t % 16.  At every point the body writes the whole
  1024 x 1024 distance tile.  The scratch row carries the running column minimum of a column block: the first tile of
  a block (t % 16 = 0) stores its own column minima, each later tile (t % 16 > 0) stores the entrywise minimum of what
  the scratch held and its own column minima, and the last tile (t % 16 = 15) copies the scratch into the second
  output's buffer, which is written back only there and is left untouched at every other point.
-/
import proofs.«107057_j38946763440842_1_alg».proof.Proof.Gen.KernelIdeal.Launch
import proofs.«107057_j38946763440842_1_alg».proof.Proof.Gen.KernelIdeal.Skeleton
import proofs.«107057_j38946763440842_1_alg».proof.Proof.Gen.KernelIdeal.Points
import proofs.«107057_j38946763440842_1_alg».proof.Proof.Gen.KernelIdeal.Frame
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions of the body, as functions of the grid point -/

/-- The row tile is the first of its column block. -/
abbrev condFirst (i : grid0.Coords) : Prop :=
  (Scalar.cmpi .ne (Scalar.extui (Scalar.cmpi .eq (BitVec.ofNat 32 (i 1).val) 0#32)) 0#32) = 1#1
/-- The row tile is not the first. -/
abbrev condLater (i : grid0.Coords) : Prop :=
  (Scalar.cmpi .ne (Scalar.extui (Scalar.cmpi .sgt (BitVec.ofNat 32 (i 1).val) 0#32)) 0#32) = 1#1
/-- The row tile is the last (the sixteenth). -/
abbrev condLast (i : grid0.Coords) : Prop := k0_cond3 i = 1#1

theorem hcondFirst : ∀ t : Fin cfg0.N, condFirst (grid0.coords t) ↔ t.val % 16 = 0 :=
  (by decide +kernel : ∀ t : Fin grid0.N, condFirst (grid0.coords t) ↔ t.val % 16 = 0)
theorem hcondLater : ∀ t : Fin cfg0.N, condLater (grid0.coords t) ↔ ¬ t.val % 16 = 0 :=
  (by decide +kernel : ∀ t : Fin grid0.N, condLater (grid0.coords t) ↔ ¬ t.val % 16 = 0)
theorem hcondLast : ∀ t : Fin cfg0.N, condLast (grid0.coords t) ↔ t.val % 16 = 15 :=
  (by decide +kernel : ∀ t : Fin grid0.N, condLast (grid0.coords t) ↔ t.val % 16 = 15)

/-- The inputs and the distance tile are stored into at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The second output is stored into exactly at the last tile of a column block, and written back exactly there. -/
theorem live3 : ∀ t : Fin cfg0.N, t.val % 16 = 15 → cfg0.idle 3 (grid0.coords t) = false := by decide +kernel
theorem idle3 : ∀ t : Fin cfg0.N, ¬ t.val % 16 = 15 → cfg0.idle 3 (grid0.coords t) = true := by decide +kernel
theorem noFlush3 : ∀ t : Fin cfg0.N, ¬ t.val % 16 = 15 → (cfg0.win 3).flush t = false := by decide +kernel

/-! ## A whole store read back -/

theorem zeros2 : (![0, 0] : Fin 2 → Nat) = fun _ => 0 := by
  funext a; fin_cases a <;> rfl

/-- One store of `w` through the whole-shape rectangle leaves `w`, whatever the buffer held. -/
theorem read_whole_store {κ : Kind} {sp : Space} {S : Shape} {e : EltTy} (hr : S.rank = 2 → True)
    (v : View sig κ sp S e) (f : v.ty.Contents (Elt F)) {off : Fin S.rank → Nat} (h : off = fun _ => 0)
    (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-! ## The body's run, case by case -/

set_option maxHeartbeats 1000000 in
/-- First tile of a column block: the distance tile is stored whole, the scratch row, whatever it held, is
    overwritten with the tile's column minima; the second output's buffer is not touched. -/
theorem runFirst (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1024 .f32) (harg4 : arg4.IsWhole) (arg5 : Memref sig .tc .vmem S1x1024 .f32) (harg5 : arg5.IsWhole)
    (arg6 : Memref sig .tc .vmem S1x1024 .f32) (harg6 : arg6.IsWhole)
    (h1 : condFirst i) (h2 : ¬condLater i) (h3 : ¬condLast i)
    (x0 : Vec F S1024x256 .f32) (x1 : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg6 fullShare d)
        ∗ (iprop(owns (c : Thread nD τ) arg2 fullShare x0 ∗ owns (c : Thread nD τ) arg3 fullShare x1 ∗ owns (c : Thread nD τ) arg4 fullShare (k0_pay1 x0 x1)
            ∗ owns (c : Thread nD τ) arg6 fullShare (k0_pay3 x0 x1)) -∗ K ⟨⟩))
      ⊢ wp frame (wpE (defs₀ (F := F)) Variants.none c none) E (cc0__vq_kernel i arg2 harg2 arg3 harg3 arg4 harg4 arg5 harg5 arg6 harg6) K := by
  simp only [cc0__vq_kernel_eq_skeleton]; unfold cc0__vq_kernel_skel
  unfold owns
  iintro ⟨⟨%f0, %hf0, H0⟩, ⟨%f1, %hf1, H1⟩, ⟨%d4, %f4, -, H4⟩, ⟨%ds, %fs, -, HS⟩, Hk⟩
  subst hf0 hf1
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [read_whole_store (fun _ => trivial) _ _ zeros2]
    simp only [View.readAt_eq_ld, Rect.toLoadRect, View.ld_unit_zero (S := S1024x256) zeros2]
  iexists _; isplitr
  swap; · iexact HS
  ipureintro
  rw [read_whole_store (fun _ => trivial) _ _ zeros2]
  simp only [View.readAt_eq_ld, Rect.toLoadRect, View.ld_unit_zero (S := S1024x256) zeros2]

set_option maxHeartbeats 1000000 in
/-- A later tile, not the last: the distance tile is stored whole, the scratch row takes the entrywise minimum of what
    it held and the tile's column minima; the second output's buffer is not touched. -/
theorem runLater (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1024 .f32) (harg4 : arg4.IsWhole) (arg5 : Memref sig .tc .vmem S1x1024 .f32) (harg5 : arg5.IsWhole)
    (arg6 : Memref sig .tc .vmem S1x1024 .f32) (harg6 : arg6.IsWhole)
    (h1 : ¬condFirst i) (h2 : condLater i) (h3 : ¬condLast i)
    (x0 : Vec F S1024x256 .f32) (x1 : Vec F S1024x256 .f32) (xs : Vec F S1x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg6 fullShare xs
        ∗ (iprop(owns (c : Thread nD τ) arg2 fullShare x0 ∗ owns (c : Thread nD τ) arg3 fullShare x1 ∗ owns (c : Thread nD τ) arg4 fullShare (k0_pay1 x0 x1)
            ∗ owns (c : Thread nD τ) arg6 fullShare (k0_pay4 x0 x1 xs)) -∗ K ⟨⟩))
      ⊢ wp frame (wpE (defs₀ (F := F)) Variants.none c none) E (cc0__vq_kernel i arg2 harg2 arg3 harg3 arg4 harg4 arg5 harg5 arg6 harg6) K := by
  simp only [cc0__vq_kernel_eq_skeleton]; unfold cc0__vq_kernel_skel
  unfold owns
  iintro ⟨⟨%f0, %hf0, H0⟩, ⟨%f1, %hf1, H1⟩, ⟨%d4, %f4, -, H4⟩, ⟨%fs, %hfs, HS⟩, Hk⟩
  subst hf0 hf1 hfs
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [read_whole_store (fun _ => trivial) _ _ zeros2]
    simp only [View.readAt_eq_ld, Rect.toLoadRect, View.ld_unit_zero (S := S1024x256) zeros2]
  iexists _; isplitr
  swap; · iexact HS
  ipureintro
  rw [read_whole_store (fun _ => trivial) _ _ zeros2]
  simp only [View.readAt_eq_ld, Rect.toLoadRect, View.ld_unit_zero (S := S1024x256) zeros2, View.ld_unit_zero (S := S1x1024) zeros2]

set_option maxHeartbeats 1000000 in
/-- The last tile of a column block: as a later tile, and the updated scratch row is also stored, whole, into the
    second output's buffer. -/
theorem runLast (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1024 .f32) (harg4 : arg4.IsWhole) (arg5 : Memref sig .tc .vmem S1x1024 .f32) (harg5 : arg5.IsWhole)
    (arg6 : Memref sig .tc .vmem S1x1024 .f32) (harg6 : arg6.IsWhole)
    (h1 : ¬condFirst i) (h2 : condLater i) (h3 : condLast i)
    (x0 : Vec F S1024x256 .f32) (x1 : Vec F S1024x256 .f32) (xs : Vec F S1x1024 .f32) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare (k0_pay1 x0 x1)
            ∗ owns (c : Thread nD τ) arg5 fullShare (k0_pay4 x0 x1 xs) ∗ owns (c : Thread nD τ) arg6 fullShare (k0_pay4 x0 x1 xs)) -∗ K ⟨⟩))
      ⊢ wp frame (wpE (defs₀ (F := F)) Variants.none c none) E (cc0__vq_kernel i arg2 harg2 arg3 harg3 arg4 harg4 arg5 harg5 arg6 harg6) K := by
  simp only [cc0__vq_kernel_eq_skeleton]; unfold cc0__vq_kernel_skel
  unfold owns
  iintro ⟨⟨%f0, %hf0, H0⟩, ⟨%f1, %hf1, H1⟩, ⟨%d4, %f4, -, H4⟩, ⟨%d5, %f5, -, H5⟩, ⟨%fs, %hfs, HS⟩, Hk⟩
  subst hf0 hf1 hfs
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [read_whole_store (fun _ => trivial) _ _ zeros2]
    simp only [View.readAt_eq_ld, Rect.toLoadRect, View.ld_unit_zero (S := S1024x256) zeros2]
  isplitl [H5]
  · iexists _; isplitr
    swap; · iexact H5
    ipureintro
    sl_unfold_words
    rw [read_whole_store (fun _ => trivial) _ _ zeros2]
    simp only [View.readAt_eq_ld, Rect.toLoadRect, View.ld_unit_zero (S := S1024x256) zeros2, View.ld_unit_zero (S := S1x1024) zeros2,
      View.readCov_unit_zero (S := S1x1024) _ zeros2]
  iexists _; isplitr
  swap; · iexact HS
  ipureintro
  sl_unfold_words
  rw [read_whole_store (fun _ => trivial) _ _ zeros2]
  simp only [View.readAt_eq_ld, Rect.toLoadRect, View.ld_unit_zero (S := S1024x256) zeros2, View.ld_unit_zero (S := S1x1024) zeros2]

/-! ## What the scratch row holds after each point -/

/-- The first window's block at a point, at its literal type: 1024 rows of the flattened input. -/
abbrev zb (c : Dev nD) (t : Fin cfg0.N) : Vec F S1024x256 .f32 := iblk m c 0 t
/-- The second window's block at a point, at its literal type: 1024 codes. -/
abbrev eb (c : Dev nD) (t : Fin cfg0.N) : Vec F S1024x256 .f32 := iblk m c 1 t

/-- The scratch row after the body at position `n`: at the first tile of a column block the tile's column minima, at a
    later tile the entrywise minimum of what the point before left and the tile's column minima. -/
def accAt (c : Dev nD) : (n : ℕ) → n < cfg0.N → Vec F S1x1024 .f32
  | 0, hn => k0_pay3 (zb m c ⟨0, hn⟩) (eb m c ⟨0, hn⟩)
  | n + 1, hn =>
    if (n + 1) % 16 = 0 then k0_pay3 (zb m c ⟨n + 1, hn⟩) (eb m c ⟨n + 1, hn⟩)
    else k0_pay4 (zb m c ⟨n + 1, hn⟩) (eb m c ⟨n + 1, hn⟩) (accAt c n (Nat.lt_of_succ_lt hn))

theorem accAt_first (c : Dev nD) (t : Fin cfg0.N) (h : t.val % 16 = 0) :
    accAt m c t.val t.isLt = k0_pay3 (zb m c t) (eb m c t) := by
  obtain ⟨n, hn⟩ := t
  cases n with
  | zero => rfl
  | succ n => exact if_pos h

theorem accAt_later (c : Dev nD) (t : Fin cfg0.N) (h : ¬ t.val % 16 = 0) :
    accAt m c t.val t.isLt
      = k0_pay4 (zb m c t) (eb m c t) (accAt m c (t.val - 1) (Nat.lt_of_le_of_lt (Nat.sub_le _ _) t.isLt)) := by
  obtain ⟨n, hn⟩ := t
  cases n with
  | zero => exact absurd (Nat.zero_mod _) h
  | succ n => exact if_neg h

/-! ## The region's invariant: the scratch row at what the point before left -/

/-- The scratch operand: a whole scoped buffer of the kernel's own. -/
abbrev scM : Memref sig .tc .vmem S1x1024 .f32 := Memref.whole cc0_scratch0

/-- What the launch hands the region beside the windows: the scratch row at some contents, the generator register at
    some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before position `n`: before the first point what the launch hands over; afterwards the scratch row at what the
    point before left in it. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The proof data of the one pipeline on core `c`: the arrays as the region finds them; after the body at point `t`
    each input's buffer at its block, the first output's at the distance tile of the two blocks, the second output's
    at the scratch row (stored there at the last tile of a column block; at the other points the buffer is handed back
    as found and this entry is not consulted); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (zb m c t) (eb m c t)
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay1 (zb m c t) (eb m c t) := by dsimp only [dats]
theorem after3 (c : Dev nD) (t : Fin cfg0.N) : (dats m 0 c).after 3 t = accAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation, at a generic point -/

/-- Each window's current staging memref at point `t`, spelled as the pipeline passes it. -/
abbrev ms0 (t : Fin cfg0.N) : Memref sig .tc .vmem S1024x256 .f32 := win0_0.stage (cfg0.slots t 0)
abbrev ms1 (t : Fin cfg0.N) : Memref sig .tc .vmem S1024x256 .f32 := win0_1.stage (cfg0.slots t 1)
abbrev ms2 (t : Fin cfg0.N) : Memref sig .tc .vmem S1024x1024 .f32 := win0_2.stage (cfg0.slots t 2)
abbrev ms3 (t : Fin cfg0.N) : Memref sig .tc .vmem S1x1024 .f32 := win0_3.stage (cfg0.slots t 3)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (k0_pay1 (zb m c t) (eb m c t)) := by
  unfold Dat.leavesExact; rw [live2 t, after2]
theorem leaves3_last (c : Dev nD) (t : Fin cfg0.N) (h : t.val % 16 = 15) :
    (dats m 0 c).leavesExact 3 t = owns (c : Thread nD τ) (ms3 t) fullShare (accAt m c t.val t.isLt) := by
  unfold Dat.leavesExact; rw [live3 t h, after3]

set_option maxHeartbeats 1600000 in
/-- The body at any point: the inputs' buffers hold their blocks; the point's position in its column block says which
    case runs; the invariant hands over the scratch row (at anything before the first point, else at what the point
    before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 32 := lt_of_lt_of_eq t.isLt (show cfg0.N = 32 from N_0)
  by_cases h0 : t.val % 16 = 0
  · have h15 : ¬ t.val % 16 = 15 := by omega
    rw [Dat.leavesExact_idle (dats m 0 c) 3 t (idle3 t h15) (noFlush3 t h15), accAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, H3⟩
      iapply (runFirst c Set.univ (grid0.coords t) _ _ _ _ _ _ _ _ _ _ ((hcondFirst t).mpr h0)
        (fun h => (hcondLater t).mp h h0) (fun h => h15 ((hcondLast t).mp h)) (iblk m c 0 t) (iblk m c 1 t) _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [PhiS_castSucc m c t, PhiS_pos m c _ _ hz]
      iintro ⟨⟨HS, Hg⟩, Ho, ⟨%d0, H0⟩, ⟨%d1, H1⟩, ⟨%d2, H2⟩, H3⟩
      iapply (runFirst c Set.univ (grid0.coords t) _ _ _ _ _ _ _ _ _ _ ((hcondFirst t).mpr h0)
        (fun h => (hcondLater t).mp h h0) (fun h => h15 ((hcondLast t).mp h)) (iblk m c 0 t) (iblk m c 1 t) _)
      isplitl [H0]; · iexact H0
      isplitl [H1]; · iexact H1
      isplitl [H2]; · iexists _; iexact H2
      isplitl [HS]; · iexists _; iexact HS
      iintro ⟨H0, H1, H2, HS⟩
      isplitl [HS Hg]
      · isplitl [HS]; · iexact HS
        iexact Hg
      isplitl [Ho]; · iexact Ho
      isplitl [H0]; · iexact H0
      isplitl [H1]; · iexact H1
      isplitl [H2]; · iexact H2
      iexact H3
  · have hz : t.val ≠ 0 := fun h => h0 (by rw [h])
    rw [PhiS_castSucc m c t, PhiS_pos m c _ _ hz, accAt_later m c t h0]
    by_cases h15 : t.val % 16 = 15
    · rw [leaves3_last m c t h15, accAt_later m c t h0]
      iintro ⟨⟨HS, Hg⟩, Ho, ⟨%d0, H0⟩, ⟨%d1, H1⟩, ⟨%d2, H2⟩, ⟨%d3, H3⟩⟩
      iapply (runLast c Set.univ (grid0.coords t) _ _ _ _ _ _ _ _ _ _ (fun h => h0 ((hcondFirst t).mp h))
        ((hcondLater t).mpr h0) ((hcondLast t).mpr h15) (iblk m c 0 t) (iblk m c 1 t) _ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 3 t (idle3 t h15) (noFlush3 t h15)]
      iintro ⟨⟨HS, Hg⟩, Ho, ⟨%d0, H0⟩, ⟨%d1, H1⟩, ⟨%d2, H2⟩, H3⟩
      iapply (runLater c Set.univ (grid0.coords t) _ _ _ _ _ _ _ _ _ _ (fun h => h0 ((hcondFirst t).mp h))
        ((hcondLater t).mpr h0) (fun h => h15 ((hcondLast t).mp h)) (iblk m c 0 t) (iblk m c 1 t) _ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch row's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run and the frame -/

set_option backward.isDefEq.respectTransparency.types false in
/-- From any memory with zero counters every weakly fair execution of @main terminates, and every final state has each
    array of the pipeline at what the proof data computes and every other unscoped buffer as the lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KHost.lean ====
/-
  The host operations around the kernel's region, at the extended reals.  Before the region: the channel axis moved
  last and the three leading axes merged, the same two operations the reference begins with, so the flattened input
  the region finds is the reference's.  After it: the row of column minima summed from zero and divided by the word of
  2048.
-/
import proofs.«107057_j38946763440842_1_alg».proof.Proof.Gen.KernelIdeal.Frame
import proofs.«107057_j38946763440842_1_alg».proof.Proof.Gen.ReferenceIdeal.Read
import Idealize.ShloMosaic.PureOps.Ideal.Laws
import Idealize.ShloMosaic.Lib.ValueIdx
import Idealize.ShloMosaic.Lib.StableHlo.Run

set_option maxRecDepth 16384

noncomputable section

namespace Cert.KernelIdeal.HostOps

open Cert.KernelIdeal Cert.KernelIdeal.Gen
open Idealize.ShloMosaic Idealize.ShloMosaic.TcCoe Idealize.ShloMosaic.ValueIdx Idealize.SL.Sem
open Idealize.ShloMosaic.Pipeline (Dat)

/-- The sum from the zero word over every entry of a one-row matrix, divided by the word of 2048, written over the
    row's 2048 entries: the single row index is summed away. -/
private theorem sum_row_div (A : Vec Ideal S1x2048 .f32) (hr : S1x2048.ReducesTo [0, 1] S_) (hu : 0 < S_.numel)
    (Y : Fin 2048 → EReal) (hY : ∀ k : Fin 2048, A (ix2 (0 : Fin 1) k) = Y k) :
    Host.divf (F := Ideal) (Host.reduceAdd (F := Ideal) A (constant (F := Ideal) S_ .f32 0x00000000#32) hr hu)
        (constant (F := Ideal) S_ .f32 0x45000000#32)
      = fun _ => Ideal.div (Ideal.ofBits .f32 0x00000000#32 + ∑ k : Fin 2048, Y k) (Ideal.ofBits .f32 0x45000000#32) := by
  funext i
  simp only [Host.divf, Host.reduceAdd, Ideal.hostReduceAdd_def, Ideal.hostDivf_def]
  rw [Ideal.hostReduceAdd_total hr (fun b => b.elim0), constant_apply, constant_apply, sum_idx2, Fin.sum_univ_one]
  simp only [hY]

variable (m : (ℓ : Loc nD τ sig) → Buf (Elt Ideal) ℓ)

/-- The flattened input the region finds is the reference's second value of the same argument array. -/
theorem V_main_v1 (c : Dev nD) :
    (V m c main_v1 : Vec Ideal S16384x256 .f32)
      = Cert.ReferenceIdeal.Read.val_main_v1 (F := Ideal) (m ((c : Thread nD τ).loc main_arg0)) := by
  show StableHlo.after hostOps0 (fun b => m (c, b)) (Proc.devRef .tc main_v1) = _
  after_results
  unfold Cert.ReferenceIdeal.Read.val_main_v1 Cert.ReferenceIdeal.Read.val_main_v0
  rfl

/-- After the lines that follow the region, the first result's buffer is the first output array as the pipeline left it. -/
theorem tail_v2_0 (dats : (p : Fin 1) → (c : Dev nD) → Dat τ (Elt Ideal) Unit ℕ (UR sig nD τ) ℕ (cfgs p) c) (c : Dev nD) :
    Pipeline.afterTail₀ cfgs dats 0 (V0 m) [hostOps1] c main_v2_0 = (dats 0 c).arrAt 2 cfg0.N := by
  unfold Pipeline.afterTail₀
  rw [StableHlo.after_of_forall_not_mem (b := Proc.devRef .tc main_v2_0) _ _ (List.forall_iff_forall_mem.mp (by
      simp only [hostOps1, List.flatten_cons, List.flatten_nil, List.append_nil, List.cons_append,
        List.nil_append, List.Forall, StableHlo.nullary_writes, StableHlo.binary_writes, Finset.mem_singleton]
      repeat' apply And.intro
      all_goals exact StableHlo.devRef_ne_of_ne (by decide)))]
  exact Pipeline.withArrays_arr spec0 launch0.win.arr_inj c _ _ 2

/-- After them the scalar result is the sum from zero of the second output array's 2048 entries, divided by the word of
    2048: `Y k` is whatever the array holds at (0, k). -/
theorem tail_v4 (dats : (p : Fin 1) → (c : Dev nD) → Dat τ (Elt Ideal) Unit ℕ (UR sig nD τ) ℕ (cfgs p) c) (c : Dev nD)
    (Y : Fin 2048 → EReal)
    (hY : ∀ k : Fin 2048, ((dats 0 c).arrAt 3 cfg0.N : Vec Ideal S1x2048 .f32) (ix2 (0 : Fin 1) k) = Y k) :
    (Pipeline.afterTail₀ cfgs dats 0 (V0 m) [hostOps1] c main_v4 : Vec Ideal S_ .f32)
      = fun _ => Ideal.div (Ideal.ofBits .f32 0x00000000#32 + ∑ k : Fin 2048, Y k) (Ideal.ofBits .f32 0x45000000#32) := by
  unfold Pipeline.afterTail₀
  show StableHlo.after hostOps1 _ (Proc.devRef .tc main_v4) = _
  after_results
  have e : Pipeline.withArrays (cfgs 0).spec c (V0 m c) (fun w => (dats 0 c).arrAt w (cfgs 0).N) (Proc.devRef .tc main_v2_1)
      = ((dats 0 c).arrAt 3 cfg0.N : Vec Ideal S1x2048 .f32) :=
    Pipeline.withArrays_arr spec0 launch0.win.arr_inj c _ _ 3
  rw [e]
  exact sum_row_div _ _ _ Y hY

end Cert.KernelIdeal.HostOps

end
-- ==== Proof.KBlocks.lean ====
/-
  The two input windows' blocks read at an index.  At grid point t (column block t / 16, row tile t % 16) the first
  window's block is rows (t % 16)·1024 … of the flattened input, and the second's is rows (t / 16)·1024 … of the codebook.
-/
import proofs.«107057_j38946763440842_1_alg».proof.Proof.Gen.KernelIdeal.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The first window's block at a point, at its literal type. -/
abbrev zblk (c : Dev nD) (t : Fin cfg0.N) : Vec F S1024x256 .f32 := iblk m c 0 t
/-- The second window's block at a point, at its literal type. -/
abbrev eblk (c : Dev nD) (t : Fin cfg0.N) : Vec F S1024x256 .f32 := iblk m c 1 t
/-- The flattened input as the region finds it, at its literal type. -/
abbrev zarr (c : Dev nD) : Vec F S16384x256 .f32 := V m c main_v1
/-- The codebook as the region finds it, at its literal type. -/
abbrev earr (c : Dev nD) : Vec F S2048x256 .f32 := V m c main_arg1

theorem rowOf_lt (t : Fin cfg0.N) (p : Fin 1024) : (t.val % 16) * 1024 + p.val < 16384 := by
  have := p.isLt; omega
theorem codeOf_lt (t : Fin cfg0.N) (q : Fin 1024) : (t.val / 16) * 1024 + q.val < 2048 := by
  have := q.isLt; have : t.val < 32 := lt_of_lt_of_eq t.isLt N_0; omega

/-- The first window's block index, decided over the 32 grid points: the row tile t % 16 on the row axis, block 0 on the
    channel axis. -/
theorem zidx : ∀ t : Fin cfg0.N, win0_0.index t (0 : Fin 2) = t.val % 16 ∧ win0_0.index t (1 : Fin 2) = 0 :=
  (by decide +kernel : ∀ t : Fin grid0.N, win0_0.index t (0 : Fin 2) = t.val % 16 ∧ win0_0.index t (1 : Fin 2) = 0)

/-- The second window's block index, decided over the 32 grid points: the column block t / 16 on the code axis, block 0
    on the channel axis. -/
theorem eidx : ∀ t : Fin cfg0.N, win0_1.index t (0 : Fin 2) = t.val / 16 ∧ win0_1.index t (1 : Fin 2) = 0 :=
  (by decide +kernel : ∀ t : Fin grid0.N, win0_1.index t (0 : Fin 2) = t.val / 16 ∧ win0_1.index t (1 : Fin 2) = 0)

/-- Row p of the first window's block at point t is row (t % 16)·1024 + p of the flattened input. -/
theorem zblk_apply (c : Dev nD) (t : Fin cfg0.N) (p : Fin 1024) (d : Fin 256) :
    zblk m c t (ix2 p d) = zarr m c (ix2 ⟨(t.val % 16) * 1024 + p.val, rowOf_lt t p⟩ d) := by
  obtain ⟨e0, e1⟩ := zidx t
  show iblk m c 0 t (ix2 p d) = V m c main_v1 _
  unfold iblk
  rw [View.read_apply]
  show V m c main_v1 (((cfg0.win 0).blk t).view.emb (ix2 p d)) = V m c main_v1 _
  refine congrArg _ (funext fun a => Fin.ext ?_)
  match a with
  | ⟨0, _⟩ => show win0_0.index t (0 : Fin 2) * 1024 + 1 * p.val = (t.val % 16) * 1024 + p.val; omega
  | ⟨1, _⟩ => show win0_0.index t (1 : Fin 2) * 256 + 1 * d.val = d.val; omega

/-- Row q of the second window's block at point t is row (t / 16)·1024 + q of the codebook. -/
theorem eblk_apply (c : Dev nD) (t : Fin cfg0.N) (q : Fin 1024) (d : Fin 256) :
    eblk m c t (ix2 q d) = earr m c (ix2 ⟨(t.val / 16) * 1024 + q.val, codeOf_lt t q⟩ d) := by
  obtain ⟨e0, e1⟩ := eidx t
  show iblk m c 1 t (ix2 q d) = V m c main_arg1 _
  unfold iblk
  rw [View.read_apply]
  show V m c main_arg1 (((cfg0.win 1).blk t).view.emb (ix2 q d)) = V m c main_arg1 _
  refine congrArg _ (funext fun a => Fin.ext ?_)
  match a with
  | ⟨0, _⟩ => show win0_1.index t (0 : Fin 2) * 1024 + 1 * q.val = (t.val / 16) * 1024 + q.val; omega
  | ⟨1, _⟩ => show win0_1.index t (1 : Fin 2) * 256 + 1 * d.val = d.val; omega

end Cert.KernelIdeal.Blocks

end
-- ==== Proof.Spec.lean ====
/-
  The mathematics both programs compute, over the extended reals, stated once over literal shapes.

  Inputs: the flattened vectors `zf : [16384, 256]` (row `n` is one spatial position of one batch element, its 256
  channels) and the codebook `e : [2048, 256]`.  For a row `n` and a code `k`,

    dist n k  =  max ( (Σ_d zf[n,d]²  +  Σ_d e[k,d]²)  −  2 · Σ_d zf[n,d] · e[k,d] ,  0 ),

  the squared Euclidean distance written as the expansion ‖z‖² + ‖e‖² − 2 z·e and clamped at zero.  The second result is
  the mean over the 2048 codes of the smallest distance any row has to the code:

    loss  =  ( Σ_k  inf_n dist n k ) / 2048.

  The literals 2, 0 and 2048 are kept as the binary32 words both programs print (0x40000000, 0x00000000, 0x45000000); the
  same word stands on both sides of every equation, so none of them is ever evaluated.
-/
import Idealize.ShloMosaic.PureOps.Ideal
import Idealize.ShloMosaic.Lib.ValueIdx

noncomputable section

namespace VqDist

open Idealize.ShloMosaic Idealize.ShloMosaic.ValueIdx

/-- The flattened input vectors, one row per position. -/
abbrev Rows := (⟨2, ![16384, 256]⟩ : Shape).Idx → EReal
/-- The codebook, one row per code. -/
abbrev Codes := (⟨2, ![2048, 256]⟩ : Shape).Idx → EReal

/-- The sum of squares of row `n` of an `[R, 256]` matrix. -/
def sqnorm {R : Nat} (x : (⟨2, ![R, 256]⟩ : Shape).Idx → EReal) (n : Fin R) : EReal :=
  ∑ d : Fin 256, x (ix2 n d) * x (ix2 n d)

/-- The inner product of row `n` of one `[·, 256]` matrix with row `k` of another. -/
def inner {R C : Nat} (x : (⟨2, ![R, 256]⟩ : Shape).Idx → EReal) (y : (⟨2, ![C, 256]⟩ : Shape).Idx → EReal)
    (n : Fin R) (k : Fin C) : EReal :=
  ∑ d : Fin 256, x (ix2 n d) * y (ix2 k d)

/-- The clamped expansion ‖x_n‖² + ‖y_k‖² − 2 x_n·y_k, for any two matrices of 256 columns. -/
def sqdist {R C : Nat} (x : (⟨2, ![R, 256]⟩ : Shape).Idx → EReal) (y : (⟨2, ![C, 256]⟩ : Shape).Idx → EReal)
    (n : Fin R) (k : Fin C) : EReal :=
  max ((sqnorm x n + sqnorm y k) - Ideal.ofBits .f32 0x40000000#32 * inner x y n k) (Ideal.ofBits .f32 0x00000000#32)

/-- The distance matrix `[16384, 2048]`, entry by entry. -/
def distArr (zf : Rows) (e : Codes) : (⟨2, ![16384, 2048]⟩ : Shape).Idx → EReal :=
  fun j => sqdist zf e (j 0) (j 1)

theorem distArr_ix2 (zf : Rows) (e : Codes) (n : Fin 16384) (k : Fin 2048) :
    distArr zf e (ix2 n k) = sqdist zf e n k := rfl

/-- For each code, the least distance over all rows. -/
def colMin (zf : Rows) (e : Codes) (k : Fin 2048) : EReal := ⨅ n : Fin 16384, sqdist zf e n k

/-- The mean over the codes of the least distances: the sum from zero, divided by the word of 2048. -/
def loss (zf : Rows) (e : Codes) : EReal :=
  Ideal.div (Ideal.ofBits .f32 0x00000000#32 + ∑ k : Fin 2048, colMin zf e k) (Ideal.ofBits .f32 0x45000000#32)

end VqDist

end
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.Payload.lean ====
/-
  The kernel body's four stored values, read at the extended reals at an index of the block.

  For a block `x0` of 1024 rows of the flattened input and a block `x1` of 1024 codes: the distance tile at (p, q) is the
  clamped expansion of ‖x0_p − x1_q‖²; the row of column minima at q is the infimum over the tile's 1024 rows; the value
  that resets the running minimum is that row itself; the value that updates it is the entrywise minimum of the
  running row and that row.
-/
import proofs.«107057_j38946763440842_1_alg».proof.Proof.Gen.KernelIdeal.Skeleton
import proofs.«107057_j38946763440842_1_alg».proof.Proof.Spec
import proofs.«107057_j38946763440842_1_alg».proof.Proof.LibKeepdimsColumn
import Idealize.ShloMosaic.PureOps.Ideal.Laws
import Idealize.ShloMosaic.Lib.ValueIdx
import Idealize.ShloMosaic.Lib.ValueLayout
import Idealize.ShloMosaic.Lib.Pipeline.Value
import Mathlib.Data.Finset.Fold

noncomputable section

namespace Cert.KernelIdeal.Pay

open Cert.KernelIdeal Cert.KernelIdeal.Gen Cert.LibKeepdimsColumn
open Idealize.ShloMosaic Idealize.ShloMosaic.TcCoe Idealize.ShloMosaic.ValueIdx

/-! ## The product of the two blocks: each entry is an inner product of two rows

Both operands are contracted over their second axis (the 256 channels), so the entry at (p, q) pairs row p of the first
block with row q of the second. -/

/-- The left operand's index keeps the output row on its first axis. -/
private theorem lhs_axis0 (i : S1024x1024.Idx) (k : dot_S1024x256_S1024x256_S1024x1024_1_1_0_0_n_n.contr.Idx) :
    (dot_S1024x256_S1024x256_S1024x1024_1_1_0_0_n_n.lhsIdx i k 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
/-- The left operand's index carries the contraction coordinate on its second axis. -/
private theorem lhs_axis1 (i : S1024x1024.Idx) (k : dot_S1024x256_S1024x256_S1024x1024_1_1_0_0_n_n.contr.Idx) :
    (dot_S1024x256_S1024x256_S1024x1024_1_1_0_0_n_n.lhsIdx i k 1).val = (k ⟨0, by decide⟩).val :=
  dot_S1024x256_S1024x256_S1024x1024_1_1_0_0_n_n.lhsIdx_val_of_single rfl i k
/-- The right operand's index keeps the output column on its first axis. -/
private theorem rhs_axis0 (i : S1024x1024.Idx) (k : dot_S1024x256_S1024x256_S1024x1024_1_1_0_0_n_n.contr.Idx) :
    (dot_S1024x256_S1024x256_S1024x1024_1_1_0_0_n_n.rhsIdx i k 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
/-- The right operand's index carries the contraction coordinate on its second axis. -/
private theorem rhs_axis1 (i : S1024x1024.Idx) (k : dot_S1024x256_S1024x256_S1024x1024_1_1_0_0_n_n.contr.Idx) :
    (dot_S1024x256_S1024x256_S1024x1024_1_1_0_0_n_n.rhsIdx i k 1).val = (k ⟨0, by decide⟩).val :=
  dot_S1024x256_S1024x256_S1024x1024_1_1_0_0_n_n.rhsIdx_val_of_single rfl i k

/-- The product accumulated into the zero tile: the entry at (p, q) is the sum over the channels d of the first block at
    (p, d) times the second at (q, d). -/
private theorem gram_apply (y z : FVec Ideal S1024x256 .bf16) (p q : Fin 1024) :
    matmul dot_S1024x256_S1024x256_S1024x1024_1_1_0_0_n_n none y z (constant (F := Ideal) S1024x1024 .f32 0x00000000#32) (ix2 p q)
      = ∑ d : Fin 256, y (ix2 p d) * z (ix2 q d) := by
  refine (Ideal.matmul_constant_zero_apply dot_S1024x256_S1024x256_S1024x1024_1_1_0_0_n_n none y z (ix2 p q)).trans ?_
  rw [← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-! ## The two squared norms, spread over the tile -/

/-- The first block's row sums of squares, kept as a column and spread over the columns: the entry at (p, q) is the squared
    norm of row p. -/
private theorem normCol_apply (y : FVec Ideal S1024x256 .f32) (hr : S1024x256.Reduces [1] S1024) (hφ : FKind.Formats .f32)
    (hacc : (0x00000000#32 : BitVec 32) = 0x00000000#32) (hc : S1024.ShapeCasts S1024x1)
    (hb : S1024x1.Broadcasts S1024x1024) (p q : Fin 1024) :
    broadcastTo S1024x1024 (shapeCast S1024x1 (multiReduction .add [1] S1024 (mulf y y) 0x00000000#32 hr hφ hacc) hc) hb (ix2 p q)
      = VqDist.sqnorm y p := by
  refine (broadcastTo_a1_ab_apply _ hb p q).trans ?_
  refine (shapeCast_a_a1_apply _ hc p (0 : Fin 1)).trans ?_
  exact rowSum_apply (mulf y y) hr hφ hacc p

/-- The second block's row sums of squares, kept as a column, turned into a row and spread over the rows: the entry at
    (p, q) is the squared norm of row q. -/
private theorem normRow_apply (z : FVec Ideal S1024x256 .f32) (hr : S1024x256.Reduces [1] S1024) (hφ : FKind.Formats .f32)
    (hacc : (0x00000000#32 : BitVec 32) = 0x00000000#32) (hc : S1024.ShapeCasts S1024x1)
    (ht : S1024x1.Transposes [1, 0] S1x1024) (hb : S1x1024.Broadcasts S1024x1024) (p q : Fin 1024) :
    broadcastTo S1024x1024 (transpose S1x1024 [1, 0]
        (shapeCast S1024x1 (multiReduction .add [1] S1024 (mulf z z) 0x00000000#32 hr hφ hacc) hc) ht) hb (ix2 p q)
      = VqDist.sqnorm z q := by
  refine (broadcastTo_1b_ab_apply _ hb p q).trans ?_
  refine (transpose_ix2_apply _ ht (0 : Fin 1) q).trans ?_
  refine (shapeCast_a_a1_apply _ hc q (0 : Fin 1)).trans ?_
  exact rowSum_apply (mulf z z) hr hφ hacc q

/-! ## The distance tile -/

/-- The distance tile at row `p`, column `q`. -/
theorem pay1_apply (x0 x1 : Vec Ideal S1024x256 .f32) (p q : Fin 1024) :
    k0_pay1 (F := Ideal) x0 x1 (ix2 p q) = VqDist.sqdist x0 x1 p q := by
  unfold k0_pay1
  simp only [maximumf_apply, subf_apply, addf_apply, mulf_apply, broadcast_apply]
  have e : shapeCast S1024x256 x0 shapeCasts_S1024x256_S1024x256 = x0 := shapeCast_self _ _
  rw [e, normCol_apply, normRow_apply, gram_apply]
  rfl

/-! ## The column minima -/

/-- The starting word of a minimum, the pattern of +∞, is the top of the extended reals. -/
private theorem ofBits_posInf_f32 : Ideal.ofBits .f32 0x7F800000#32 = ⊤ := by simp [Ideal.ofBits, Ideal.ieee]

/-- A minimum over one axis, read on the extended reals: the fold of `min` from the starting word's value over that
    axis's coordinates, each inserted into the reduced index. -/
private theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the rows of a 1024 × 1024 tile, started from +∞: the entry at `q` is the infimum over the rows `p` of
    the tile at (p, q). (The starting word's evidence is typed as a printed program carries it: the word equal to itself.) -/
private theorem colMin_apply (src : FVec Ideal S1024x1024 .f32) (h : S1024x1024.Reduces [0] S1024) (hφ : FKind.Formats .f32)
    (hacc : (0x7F800000#32 : BitVec 32) = 0x7F800000#32) (q : Fin 1024) :
    multiReduction .minimumf [0] S1024 src 0x7F800000#32 h hφ hacc (ix1 q) = ⨅ p : Fin 1024, src (ix2 p q) := by
  refine (multiReduction_minimumf_single src 0x7F800000#32 h hφ hacc (ix1 q)).trans ?_
  show (Finset.univ : Finset (Fin 1024)).fold min (Ideal.ofBits .f32 0x7F800000#32) (fun p => src (h.lift (ix1 q) p)) = _
  have hl : ∀ p : Fin 1024, h.lift (ix1 q) p = ix2 p q := fun p => funext fun ax => by
    match ax with
    | ⟨0, _⟩ => rfl
    | ⟨1, _⟩ => rfl
  rw [ofBits_posInf_f32]
  apply le_antisymm
  · exact le_iInf fun p => (Finset.fold_min_le _).mpr (Or.inr ⟨p, Finset.mem_univ _, le_of_eq (congrArg src (hl p))⟩)
  · exact (Finset.le_fold_min _).mpr ⟨le_top, fun p _ => (iInf_le _ p).trans (le_of_eq (congrArg src (hl p)).symm)⟩

/-- The tile's column minimum at column `q`: the infimum over its rows. -/
theorem pay2_apply (x0 x1 : Vec Ideal S1024x256 .f32) (q : Fin 1024) :
    k0_pay2 (F := Ideal) x0 x1 (ix2 (0 : Fin 1) q) = ⨅ p : Fin 1024, VqDist.sqdist x0 x1 p q := by
  unfold k0_pay2
  refine (shapeCast_a_1a_apply _ shapeCasts_S1024_S1x1024 (0 : Fin 1) q).trans ?_
  refine (colMin_apply (k0_pay1 (F := Ideal) x0 x1) _ _ _ q).trans ?_
  exact iInf_congr fun p => pay1_apply x0 x1 p q

/-- The value stored at the first tile of a column block: the column minima themselves. -/
theorem pay3_eq (x0 x1 : Vec Ideal S1024x256 .f32) : k0_pay3 (F := Ideal) x0 x1 = k0_pay2 (F := Ideal) x0 x1 := by
  unfold k0_pay3
  exact shapeCast_self _ _

/-- The value stored at a later tile: the running minimum against this tile's column minima. -/
theorem pay4_apply (x0 x1 : Vec Ideal S1024x256 .f32) (xs : Vec Ideal S1x1024 .f32) (q : Fin 1024) :
    k0_pay4 (F := Ideal) x0 x1 xs (ix2 (0 : Fin 1) q) = min (xs (ix2 (0 : Fin 1) q)) (k0_pay2 (F := Ideal) x0 x1 (ix2 (0 : Fin 1) q)) := by
  unfold k0_pay4
  refine (congrFun (shapeCast_self _ _) (ix2 (0 : Fin 1) q)).trans ?_
  rfl

end Cert.KernelIdeal.Pay

end
-- ==== Proof.SpecLaws.lean ====
/-
  Order facts about the specification, over the extended reals.

  The 16384 rows are sixteen tiles of 1024.  `tilePrefix f k` is the least value of `f` over the rows of tiles 0 … k.
  Tile 0 alone is the infimum over its 1024 rows; adding tile k + 1 takes the minimum with that tile's infimum; and
  with all sixteen tiles it is the infimum over every row.  Also: `sqdist` depends on its two matrices only through
  the two rows it reads.
-/
import proofs.«107057_j38946763440842_1_alg».proof.Proof.Spec
import Mathlib.Order.CompleteLattice.Basic
import Mathlib.Order.ConditionallyCompleteLattice.Basic

noncomputable section

namespace VqDist

open Idealize.ShloMosaic Idealize.ShloMosaic.ValueIdx

/-- `sqdist` reads row `n` of the first matrix and row `k` of the second, and nothing else. -/
theorem sqdist_congr {R C R' C' : Nat}
    (x : (⟨2, ![R, 256]⟩ : Shape).Idx → EReal) (y : (⟨2, ![C, 256]⟩ : Shape).Idx → EReal)
    (x' : (⟨2, ![R', 256]⟩ : Shape).Idx → EReal) (y' : (⟨2, ![C', 256]⟩ : Shape).Idx → EReal)
    (n : Fin R) (k : Fin C) (n' : Fin R') (k' : Fin C')
    (hx : ∀ d : Fin 256, x (ix2 n d) = x' (ix2 n' d)) (hy : ∀ d : Fin 256, y (ix2 k d) = y' (ix2 k' d)) :
    sqdist x y n k = sqdist x' y' n' k' := by
  have h1 : sqnorm x n = sqnorm x' n' := by
    unfold sqnorm
    exact Finset.sum_congr rfl fun d _ => by rw [hx d]
  have h2 : sqnorm y k = sqnorm y' k' := by
    unfold sqnorm
    exact Finset.sum_congr rfl fun d _ => by rw [hy d]
  have h3 : inner x y n k = inner x' y' n' k' := by
    unfold inner
    exact Finset.sum_congr rfl fun d _ => by rw [hx d, hy d]
  unfold sqdist
  rw [h1, h2, h3]

/-- The least value of `f` over the rows of tiles 0 … k. -/
def tilePrefix (f : Fin 16384 → EReal) (k : ℕ) : EReal := ⨅ r : Fin 16384, ⨅ (_ : r.val / 1024 ≤ k), f r

theorem rowInTile_lt (j : ℕ) (hj : j < 16) (p : Fin 1024) : j * 1024 + p.val < 16384 := by
  have := p.isLt; omega

/-- Tile 0 alone. -/
theorem tilePrefix_zero (f : Fin 16384 → EReal) :
    tilePrefix f 0 = ⨅ p : Fin 1024, f ⟨0 * 1024 + p.val, rowInTile_lt 0 (by norm_num) p⟩ := by
  unfold tilePrefix
  apply le_antisymm
  · refine le_iInf fun p => ?_
    exact iInf₂_le (⟨0 * 1024 + p.val, rowInTile_lt 0 (by norm_num) p⟩ : Fin 16384)
      (by have := p.isLt; show (0 * 1024 + p.val) / 1024 ≤ 0; omega)
  · refine le_iInf₂ fun r hr => ?_
    have hlt : r.val < 1024 := by omega
    refine (iInf_le _ (⟨r.val, hlt⟩ : Fin 1024)).trans (le_of_eq (congrArg f (Fin.ext ?_)))
    show 0 * 1024 + r.val = r.val
    omega

/-- One more tile: the minimum with that tile's infimum. -/
theorem tilePrefix_succ (f : Fin 16384 → EReal) (k : ℕ) (hk : k + 1 < 16) :
    tilePrefix f (k + 1) = min (tilePrefix f k) (⨅ p : Fin 1024, f ⟨(k + 1) * 1024 + p.val, rowInTile_lt (k + 1) hk p⟩) := by
  unfold tilePrefix
  apply le_antisymm
  · refine le_min (le_iInf₂ fun r hr => iInf₂_le r (by omega)) (le_iInf fun p => ?_)
    exact iInf₂_le (⟨(k + 1) * 1024 + p.val, rowInTile_lt (k + 1) hk p⟩ : Fin 16384)
      (by have := p.isLt; show ((k + 1) * 1024 + p.val) / 1024 ≤ k + 1; omega)
  · refine le_iInf₂ fun r hr => ?_
    by_cases h : r.val / 1024 ≤ k
    · exact (min_le_left _ _).trans (iInf₂_le r h)
    · have hp : r.val % 1024 < 1024 := Nat.mod_lt _ (by norm_num)
      refine (min_le_right _ _).trans
        ((iInf_le _ (⟨r.val % 1024, hp⟩ : Fin 1024)).trans (le_of_eq (congrArg f (Fin.ext ?_))))
      show (k + 1) * 1024 + r.val % 1024 = r.val
      omega

/-- All sixteen tiles: every row. -/
theorem tilePrefix_last (f : Fin 16384 → EReal) : tilePrefix f 15 = ⨅ r : Fin 16384, f r := by
  unfold tilePrefix
  apply le_antisymm
  · exact le_iInf fun r => iInf₂_le r (by have := r.isLt; omega)
  · exact le_iInf₂ fun r _ => iInf_le _ r

end VqDist

end
-- ==== Proof.KTile.lean ====
/-
  The kernel's per-point values at the extended reals, in terms of the two arrays the region finds.

  At grid point t (column block t / 16, row tile t % 16) the distance tile at (p, q) is the specification's clamped
  squared distance between row (t % 16)·1024 + p of the flattened input and code (t / 16)·1024 + q.  The scratch row after
  point t holds, at q, the least of those distances over the rows of tiles 0 … t % 16; after the last tile of a column
  block that is the least over every row: the specification's column minimum.
-/
import proofs.«107057_j38946763440842_1_alg».proof.Proof.KIBody
import proofs.«107057_j38946763440842_1_alg».proof.Proof.KBlocks
import proofs.«107057_j38946763440842_1_alg».proof.Proof.Payload
import proofs.«107057_j38946763440842_1_alg».proof.Proof.SpecLaws

set_option maxRecDepth 16384

noncomputable section

namespace Cert.KernelIdeal.Tile

open Cert.KernelIdeal Cert.KernelIdeal.Gen Cert.KernelIdeal.Body Cert.KernelIdeal.Blocks
open Idealize.ShloMosaic Idealize.ShloMosaic.TcCoe Idealize.ShloMosaic.ValueIdx Idealize.SL.Sem

variable (m : (ℓ : Loc nD τ sig) → Buf (Elt Ideal) ℓ)

/-- The clamped squared distance between two rows of the blocks at point t is the one between the rows of the two arrays
    those blocks are cut from. -/
private theorem blk_sqdist (c : Dev nD) (t : Fin cfg0.N) (p q : Fin 1024) :
    VqDist.sqdist (zb m c t) (eb m c t) p q
      = VqDist.sqdist (zarr m c) (earr m c) ⟨(t.val % 16) * 1024 + p.val, rowOf_lt t p⟩ ⟨(t.val / 16) * 1024 + q.val, codeOf_lt t q⟩ :=
  VqDist.sqdist_congr (R := 1024) (C := 1024) (R' := 16384) (C' := 2048) (zb m c t) (eb m c t) (zarr m c) (earr m c) p q _ _
    (fun d => zblk_apply m c t p d) (fun d => eblk_apply m c t q d)

/-- The distance tile of point t at (p, q). -/
theorem tile_apply (c : Dev nD) (t : Fin cfg0.N) (p q : Fin 1024) :
    k0_pay1 (F := Ideal) (zb m c t) (eb m c t) (ix2 p q)
      = VqDist.sqdist (zarr m c) (earr m c) ⟨(t.val % 16) * 1024 + p.val, rowOf_lt t p⟩ ⟨(t.val / 16) * 1024 + q.val, codeOf_lt t q⟩ := by
  exact (Pay.pay1_apply _ _ p q).trans (blk_sqdist m c t p q)

/-- The distances from every row of the flattened input to the code that column q of position n's tile stands for. -/
private abbrev colDist (c : Dev nD) (n : ℕ) (hn : n < cfg0.N) (q : Fin 1024) : Fin 16384 → EReal :=
  fun r => VqDist.sqdist (zarr m c) (earr m c) r ⟨(n / 16) * 1024 + q.val, codeOf_lt ⟨n, hn⟩ q⟩

/-- The column minima of point t's tile: at q, the least distance from the rows of row tile t % 16 to that code. -/
private theorem colInf_apply (c : Dev nD) (t : Fin cfg0.N) (q : Fin 1024) :
    k0_pay2 (F := Ideal) (zb m c t) (eb m c t) (ix2 (0 : Fin 1) q)
      = ⨅ p : Fin 1024, VqDist.sqdist (zarr m c) (earr m c) ⟨(t.val % 16) * 1024 + p.val, rowOf_lt t p⟩
          ⟨(t.val / 16) * 1024 + q.val, codeOf_lt t q⟩ :=
  (Pay.pay2_apply _ _ q).trans (iInf_congr fun p => blk_sqdist m c t p q)

/-- The infimum over tile j, when j is the first tile, is the least value over the tiles up to j. -/
private theorem prefix_first (G : Fin 16384 → EReal) (j : ℕ) (hj : j = 0) (hlt : ∀ p : Fin 1024, j * 1024 + p.val < 16384) :
    (⨅ p : Fin 1024, G ⟨j * 1024 + p.val, hlt p⟩) = VqDist.tilePrefix G j := by
  subst hj
  exact (VqDist.tilePrefix_zero G).symm

/-- The least value over the tiles up to k, against the infimum over tile j = k + 1, is the least value over the tiles up to j. -/
private theorem prefix_later (G : Fin 16384 → EReal) (j k : ℕ) (hj : j = k + 1) (hk : k + 1 < 16)
    (hlt : ∀ p : Fin 1024, j * 1024 + p.val < 16384) :
    min (VqDist.tilePrefix G k) (⨅ p : Fin 1024, G ⟨j * 1024 + p.val, hlt p⟩) = VqDist.tilePrefix G j := by
  subst hj
  exact (VqDist.tilePrefix_succ G k hk).symm

/-- After position n the scratch row holds, at q, the least distance to column q's code over the rows of tiles 0 … n % 16:
    by induction on the position, the first tile of a column block starting the minimum afresh and a later one taking
    the minimum with what the position before left. -/
private theorem acc_prefix (c : Dev nD) (n : ℕ) : ∀ (hn : n < cfg0.N) (q : Fin 1024),
    accAt m c n hn (ix2 (0 : Fin 1) q) = VqDist.tilePrefix (colDist m c n hn q) (n % 16) := by
  induction n using Nat.strong_induction_on with
  | _ n ih =>
    intro hn q
    by_cases h : n % 16 = 0
    · refine (congrFun (accAt_first m c ⟨n, hn⟩ h) (ix2 (0 : Fin 1) q)).trans ?_
      refine (congrFun (Pay.pay3_eq _ _) (ix2 (0 : Fin 1) q)).trans ?_
      refine (colInf_apply m c ⟨n, hn⟩ q).trans ?_
      exact prefix_first (colDist m c n hn q) (n % 16) h (fun p => rowOf_lt ⟨n, hn⟩ p)
    · have hpos : n - 1 < n := by omega
      have hn' : n - 1 < cfg0.N := Nat.lt_of_le_of_lt (Nat.sub_le _ _) hn
      have eG : colDist m c (n - 1) hn' q = colDist m c n hn q := funext fun r =>
        congrArg (VqDist.sqdist (zarr m c) (earr m c) r) (Fin.ext (by
          show ((n - 1) / 16) * 1024 + q.val = (n / 16) * 1024 + q.val
          omega))
      have ih' : accAt m c (n - 1) hn' (ix2 (0 : Fin 1) q) = VqDist.tilePrefix (colDist m c n hn q) ((n - 1) % 16) :=
        (ih (n - 1) hpos hn' q).trans (congrArg (fun G => VqDist.tilePrefix G ((n - 1) % 16)) eG)
      refine (congrFun (accAt_later m c ⟨n, hn⟩ h) (ix2 (0 : Fin 1) q)).trans ?_
      refine (Pay.pay4_apply _ _ _ q).trans ?_
      refine (congrArg₂ min ih' (colInf_apply m c ⟨n, hn⟩ q)).trans ?_
      exact prefix_later (colDist m c n hn q) (n % 16) ((n - 1) % 16) (by omega) (by omega) (fun p => rowOf_lt ⟨n, hn⟩ p)

/-- After the last tile of a column block the scratch row holds the column minima of the block's 1024 codes. -/
theorem acc_last (c : Dev nD) (t : Fin cfg0.N) (h : t.val % 16 = 15) (q : Fin 1024) :
    accAt m c t.val t.isLt (ix2 (0 : Fin 1) q)
      = VqDist.colMin (zarr m c) (earr m c) ⟨(t.val / 16) * 1024 + q.val, codeOf_lt t q⟩ := by
  refine (acc_prefix m c t.val t.isLt q).trans ?_
  rw [h]
  exact VqDist.tilePrefix_last _

end Cert.KernelIdeal.Tile

end
-- ==== Proof.KFinal.lean ====
/-
  From blocks to arrays: what the two output arrays hold after the run.

  The first output's block at point t is tile (t % 16, t / 16) of the [16384, 2048] distance matrix, written back at every
  point; the 32 tiles cover the matrix, so it ends holding the specification's distance matrix.  The second output's block
  at point t is columns (t / 16)·1024 … of the [1, 2048] row, written back only at the last tile of a column block
  (t % 16 = 15), when the scratch row holds the block's column minima; the two blocks cover the row.
-/
import proofs.«107057_j38946763440842_1_alg».proof.Proof.KTile
import Idealize.ShloMosaic.Lib.Pipeline.Value

set_option maxRecDepth 16384

noncomputable section

namespace Cert.KernelIdeal.Final

open Cert.KernelIdeal Cert.KernelIdeal.Gen Cert.KernelIdeal.Body Cert.KernelIdeal.Blocks Cert.KernelIdeal.Tile
open Idealize.ShloMosaic Idealize.ShloMosaic.TcCoe Idealize.ShloMosaic.ValueIdx Idealize.SL.Sem

variable (m : (ℓ : Loc nD τ sig) → Buf (Elt Ideal) ℓ)

/-! ## The first output: the distance matrix -/

/-- The first output's block index, decided over the 32 grid points: the row tile t % 16 on the row axis, the column
    block t / 16 on the code axis. -/
theorem didx : ∀ t : Fin cfg0.N, win0_2.index t (0 : Fin 2) = t.val % 16 ∧ win0_2.index t (1 : Fin 2) = t.val / 16 :=
  (by decide +kernel : ∀ t : Fin grid0.N, win0_2.index t (0 : Fin 2) = t.val % 16 ∧ win0_2.index t (1 : Fin 2) = t.val / 16)

/-- The distance tile of point t at an index of its block is the distance matrix where the block's rectangle puts that
    index: row (t % 16)·1024 + p, code (t / 16)·1024 + q. -/
theorem tile_read (c : Dev nD) (t : Fin cfg0.N) (y : S1024x1024.Idx) :
    k0_pay1 (F := Ideal) (zb m c t) (eb m c t) y
      = VqDist.distArr (zarr m c) (earr m c) (((cfg0.win 2).blk t).view.emb y) := by
  obtain ⟨e0, e1⟩ := didx t
  obtain ⟨p, q, rfl⟩ : ∃ (p q : Fin 1024), y = ix2 p q := ⟨y 0, y 1, eq_ix2 y⟩
  refine (tile_apply m c t p q).trans ?_
  show VqDist.sqdist (zarr m c) (earr m c) _ _
      = VqDist.sqdist (zarr m c) (earr m c) ((((cfg0.win 2).blk t).view.emb (ix2 p q)) 0) ((((cfg0.win 2).blk t).view.emb (ix2 p q)) 1)
  refine congrArg₂ (VqDist.sqdist (zarr m c) (earr m c)) (Fin.ext ?_) (Fin.ext ?_)
  · show (t.val % 16) * 1024 + p.val = win0_2.index t (0 : Fin 2) * 1024 + 1 * p.val; omega
  · show (t.val / 16) * 1024 + q.val = win0_2.index t (1 : Fin 2) * 1024 + 1 * q.val; omega

/-- What point t writes back to the first output is block t of the distance matrix. -/
theorem flushed2_eq (c : Dev nD) (t : Fin cfg0.N) :
    (dats (F := Ideal) m 0 c).flushed 2 t
      = ((cfg0.win 2).blk t).view.read (Elt Ideal) (VqDist.distArr (zarr m c) (earr m c)) := by
  show (cfg0.win 2).cut (grid0.coords t) ((dats (F := Ideal) m 0 c).after 2 t) = _
  rw [after2]
  funext y
  exact tile_read m c t y

/-- An index of the first output is in point t's block iff each coordinate is in the block's range on its axis. -/
theorem mem_blk2 (t : Fin cfg0.N) (i : S16384x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2_0).slice (win0_2.rect t)).set ↔ _
  rw [View.set_slice_whole, Rect.mem_set_unit]
  exact Iff.rfl

/-- The 32 tiles cover the matrix: entry (r, k) is in the block of the point (k / 1024)·16 + r / 1024, and every point
    writes its block back. -/
theorem cover2 (i : S16384x2048.Idx) :
    ∃ t : Fin cfg0.N, (cfg0.win 2).flush t = true ∧ i ∈ ((cfg0.win 2).blk t).view.set := by
  have h0 : (i 0).val < 16384 := idx2_lt0 i
  have h1 : (i 1).val < 2048 := idx2_lt1 i
  obtain ⟨t, ht⟩ : ∃ t : Fin cfg0.N, t.val = (i 1).val / 1024 * 16 + (i 0).val / 1024 :=
    ⟨⟨(i 1).val / 1024 * 16 + (i 0).val / 1024, lt_of_lt_of_eq (by omega) N_0.symm⟩, rfl⟩
  obtain ⟨e0, e1⟩ := didx t
  refine ⟨t, flush0_2 t, ?_⟩
  rw [mem_blk2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The first output array after the run: the distance matrix of the flattened input and the codebook. -/
theorem final2 (c : Dev nD) :
    ((dats (F := Ideal) m 0 c).arrAt 2 cfg0.N : Vec Ideal S16384x2048 .f32) = VqDist.distArr (zarr m c) (earr m c) :=
  (dats (F := Ideal) m 0 c).arrAt_eq_of_cover 2 _ (fun t _ => flushed2_eq m c t) cover2

/-! ## The second output: the row of column minima -/

/-- The row of column minima, as a [1, 2048] array. -/
abbrev minRow (c : Dev nD) : S1x2048.Idx → EReal := fun j => VqDist.colMin (zarr m c) (earr m c) (j 1)

/-- The second output's block index, decided over the 32 grid points: row 0, the column block t / 16 on the code axis. -/
theorem midx : ∀ t : Fin cfg0.N, win0_3.index t (0 : Fin 2) = 0 ∧ win0_3.index t (1 : Fin 2) = t.val / 16 :=
  (by decide +kernel : ∀ t : Fin grid0.N, win0_3.index t (0 : Fin 2) = 0 ∧ win0_3.index t (1 : Fin 2) = t.val / 16)

/-- After the last tile of a column block the scratch row at an index of its block is the row of column minima where the
    block's rectangle puts that index: code (t / 16)·1024 + q. -/
theorem row_read (c : Dev nD) (t : Fin cfg0.N) (h15 : t.val % 16 = 15) (y : S1x1024.Idx) :
    accAt (F := Ideal) m c t.val t.isLt y = minRow m c (((cfg0.win 3).blk t).view.emb y) := by
  obtain ⟨e0, e1⟩ := midx t
  obtain ⟨z, q, rfl⟩ : ∃ (z : Fin 1) (q : Fin 1024), y = ix2 z q := ⟨y 0, y 1, eq_ix2 y⟩
  obtain rfl : z = 0 := Subsingleton.elim _ _
  refine (acc_last m c t h15 q).trans ?_
  show VqDist.colMin (zarr m c) (earr m c) _
      = VqDist.colMin (zarr m c) (earr m c) ((((cfg0.win 3).blk t).view.emb (ix2 (0 : Fin 1) q)) 1)
  refine congrArg (VqDist.colMin (zarr m c) (earr m c)) (Fin.ext ?_)
  show (t.val / 16) * 1024 + q.val = win0_3.index t (1 : Fin 2) * 1024 + 1 * q.val; omega

/-- What a point that ends a column block writes back to the second output is its block of the row of column minima. -/
theorem flushed3_eq (c : Dev nD) (t : Fin cfg0.N) (hf : (cfg0.win 3).flush t = true) :
    (dats (F := Ideal) m 0 c).flushed 3 t = ((cfg0.win 3).blk t).view.read (Elt Ideal) (minRow m c) := by
  have h15 : t.val % 16 = 15 := (flush0_3 t).mp hf
  show (cfg0.win 3).cut (grid0.coords t) ((dats (F := Ideal) m 0 c).after 3 t) = _
  rw [after3]
  funext y
  exact row_read m c t h15 y

/-- An index of the second output is in point t's block iff each coordinate is in the block's range on its axis. -/
theorem mem_blk3 (t : Fin cfg0.N) (i : S1x2048.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v2_1).slice (win0_3.rect t)).set ↔ _
  rw [View.set_slice_whole, Rect.mem_set_unit]
  exact Iff.rfl

/-- The two written blocks cover the row: code k is in the block of the point (k / 1024)·16 + 15, the last tile of its
    column block, which writes the block back. -/
theorem cover3 (i : S1x2048.Idx) :
    ∃ t : Fin cfg0.N, (cfg0.win 3).flush t = true ∧ i ∈ ((cfg0.win 3).blk t).view.set := by
  have h0 : (i 0).val < 1 := idx2_lt0 i
  have h1 : (i 1).val < 2048 := idx2_lt1 i
  obtain ⟨t, ht⟩ : ∃ t : Fin cfg0.N, t.val = (i 1).val / 1024 * 16 + 15 :=
    ⟨⟨(i 1).val / 1024 * 16 + 15, lt_of_lt_of_eq (by omega) N_0.symm⟩, rfl⟩
  obtain ⟨e0, e1⟩ := midx t
  refine ⟨t, (flush0_3 t).mpr (by omega), ?_⟩
  rw [mem_blk3]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 1024 ≤ (i 1).val ∧ (i 1).val < win0_3.index t (1 : Fin 2) * 1024 + 1024; omega

/-- The second output array after the run, at code k: the least distance of any row to code k. -/
theorem final3 (c : Dev nD) (k : Fin 2048) :
    ((dats (F := Ideal) m 0 c).arrAt 3 cfg0.N : Vec Ideal S1x2048 .f32) (ix2 (0 : Fin 1) k) = VqDist.colMin (zarr m c) (earr m c) k :=
  congrFun ((dats (F := Ideal) m 0 c).arrAt_eq_of_cover 3 (minRow m c) (fun t hf => flushed3_eq m c t hf) cover3) (ix2 (0 : Fin 1) k)

end Cert.KernelIdeal.Final

end
-- ==== Proof.RefIsSpec.lean ====
/-
  The reference program's two results, read at the extended reals, are the specification's functions of the
  flattened input `zf` (the first two host operations: the channel axis moved last, then the three leading axes merged)
  and the codebook: the distance matrix entry by entry, and the mean over the codes of the column minima.
-/
import proofs.«107057_j38946763440842_1_alg».proof.Proof.Gen.ReferenceIdeal.Read
import proofs.«107057_j38946763440842_1_alg».proof.Proof.Spec
import Idealize.ShloMosaic.PureOps.Ideal.Laws
import Idealize.ShloMosaic.Lib.ValueIdx
import Idealize.ShloMosaic.Lib.ValueIdxRank1
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ### The index functions of the layout operations, at literal coordinates -/

private theorem idx_v9_ix2 (n : Fin 16384) (k : Fin 2048) :
    idx_main_v9 (ix2 n k) = ix2 n (⟨0, Nat.one_pos⟩ : Fin 1) :=
  funext fun a => Fin.ext (by match a with | ⟨0, _⟩ => rfl | ⟨1, _⟩ => rfl)

private theorem idx_v4_ix2 (n : Fin 16384) (z : Fin 1) :
    idx_main_v4 (ix2 n z) = ix1 n :=
  funext fun a => Fin.ext (by match a with | ⟨0, _⟩ => rfl)

private theorem idx_v3_ix1 (n : Fin 16384) (d : Fin 256) :
    idx_main_v3 (ix1 n) d = ix2 n d :=
  funext fun a => Fin.ext (by match a with | ⟨0, _⟩ => rfl | ⟨1, _⟩ => rfl)

private theorem idx_v10_ix2 (n : Fin 16384) (k : Fin 2048) :
    idx_main_v10 (ix2 n k) = ix2 (⟨0, Nat.one_pos⟩ : Fin 1) k :=
  funext fun a => Fin.ext (by match a with | ⟨0, _⟩ => rfl | ⟨1, _⟩ => rfl)

private theorem idx_v8_ix2 (z : Fin 1) (k : Fin 2048) :
    idx_main_v8 (ix2 z k) = ix1 k :=
  funext fun a => Fin.ext (by match a with | ⟨0, _⟩ => rfl)

private theorem idx_v6_ix1 (k : Fin 2048) (d : Fin 256) :
    idx_main_v6 (ix1 k) d = ix2 k d :=
  funext fun a => Fin.ext (by match a with | ⟨0, _⟩ => rfl | ⟨1, _⟩ => rfl)

private theorem lidx_v7_ix2 (n : Fin 16384) (k : Fin 2048) (d : Fin 256) :
    lidx_main_v7 (ix2 n k) d = ix2 n d :=
  funext fun a => Fin.ext (by match a with | ⟨0, _⟩ => rfl | ⟨1, _⟩ => rfl)

private theorem ridx_v7_ix2 (n : Fin 16384) (k : Fin 2048) (d : Fin 256) :
    ridx_main_v7 (ix2 n k) d = ix2 k d :=
  funext fun a => Fin.ext (by match a with | ⟨0, _⟩ => rfl | ⟨1, _⟩ => rfl)

/-! ### The distance matrix, entry by entry -/

/-- Row `n`'s sum of squares, as the reference computes it (a sum from the zero word). -/
private theorem v9_ix2 (x0 : (⟨S16x256x32x32, .f32⟩ : BufTy).Contents (Elt Ideal)) (n : Fin 16384) (k : Fin 2048) :
    val_main_v9 (F := Ideal) x0 (ix2 n k) = VqDist.sqnorm (val_main_v1 (F := Ideal) x0) n := by
  rw [val_main_v9_apply, idx_v9_ix2, val_main_v4_apply, idx_v4_ix2, val_main_v3_apply, val_main_cst_apply]
  simp only [idx_v3_ix1, val_main_v2_apply]
  unfold VqDist.sqnorm
  simp only [Ideal.ofBits_def, Ideal.mulf_def, Ideal.ofBits_zero_f32, zero_add]

/-- Code `k`'s sum of squares, as the reference computes it. -/
private theorem v10_ix2 (x1 : (⟨S2048x256, .f32⟩ : BufTy).Contents (Elt Ideal)) (n : Fin 16384) (k : Fin 2048) :
    val_main_v10 (F := Ideal) x1 (ix2 n k) = VqDist.sqnorm x1 k := by
  rw [val_main_v10_apply, idx_v10_ix2, val_main_v8_apply, idx_v8_ix2, val_main_v6_apply, val_main_cst_0_apply]
  simp only [idx_v6_ix1, val_main_v5_apply]
  unfold VqDist.sqnorm
  simp only [Ideal.ofBits_def, Ideal.mulf_def, Ideal.ofBits_zero_f32, zero_add]

/-- The contraction over the 256 channels is the inner product of row `n` with code `k`. -/
private theorem v7_ix2 (x0 : (⟨S16x256x32x32, .f32⟩ : BufTy).Contents (Elt Ideal)) (x1 : (⟨S2048x256, .f32⟩ : BufTy).Contents (Elt Ideal))
    (n : Fin 16384) (k : Fin 2048) :
    val_main_v7 (F := Ideal) x0 x1 (ix2 n k) = VqDist.inner (val_main_v1 (F := Ideal) x0) x1 n k := by
  rw [val_main_v7_apply]
  simp only [lidx_v7_ix2, ridx_v7_ix2]
  rfl

/-- One entry of the reference's distance matrix. -/
private theorem v16_ix2 (x0 : (⟨S16x256x32x32, .f32⟩ : BufTy).Contents (Elt Ideal)) (x1 : (⟨S2048x256, .f32⟩ : BufTy).Contents (Elt Ideal))
    (n : Fin 16384) (k : Fin 2048) :
    val_main_v16 (F := Ideal) x0 x1 (ix2 n k) = VqDist.sqdist (val_main_v1 (F := Ideal) x0) x1 n k := by
  rw [val_main_v16_apply, val_main_v14_apply, val_main_v11_apply, v9_ix2, v10_ix2, val_main_v13_apply, v7_ix2,
    val_main_v12_apply, val_main_cst_1_apply, val_main_v15_apply, val_main_cst_2_apply]
  unfold VqDist.sqdist
  simp only [Ideal.ofBits_def, Ideal.mulf_def, Ideal.addf_def, Ideal.subf_def, Ideal.maximumf_def]

/-- The reference's distance matrix is the specification's, of the flattened input and the codebook. -/
theorem ref_dist (x0 : (⟨S16x256x32x32, .f32⟩ : BufTy).Contents (Elt Ideal)) (x1 : (⟨S2048x256, .f32⟩ : BufTy).Contents (Elt Ideal)) :
    val_main_v16 (F := Ideal) x0 x1 = VqDist.distArr (val_main_v1 (F := Ideal) x0) x1 := by
  funext j
  rw [eq_ix2 (n0 := 16384) (n1 := 2048) j]
  exact v16_ix2 x0 x1 (j 0) (j 1)

/-! ### The column minima and their mean -/

/-- The word 0x7F800000 is +∞, the top element of the extended reals. -/
private theorem ofBits_inf_f32 : Ideal.ofBits .f32 0x7F800000#32 = (⊤ : EReal) := by
  simp [Ideal.ofBits, Ideal.ieee]

/-- A fold of the minimum from +∞ over every index is the infimum. -/
private theorem fold_minimumf_top {ι : Type} [Fintype ι] (f : ι → EReal) :
    (Finset.univ : Finset ι).fold (FloatOps.minimumf (F := Ideal) (φ := .f32)) (FloatOps.ofBits (F := Ideal) .f32 0x7F800000#32) f
      = ⨅ i, f i := by
  show (Finset.univ : Finset ι).fold min (Ideal.ofBits .f32 0x7F800000#32) f = _
  rw [ofBits_inf_f32, ← Finset.inf_univ_eq_iInf]
  rfl

/-- The code index `k` with the row `n` put back on the reduced axis is (n, k). -/
private theorem lift_ix1 (h : S16384x2048.Reduces [0] S2048) (k : Fin 2048) (n : Fin (S16384x2048.size 0)) :
    h.lift (ix1 k) n = ix2 (⟨n.val, n.isLt⟩ : Fin 16384) k := by
  funext c; apply Fin.ext
  fin_cases c <;> rfl

/-- The reference's minimum over the rows, at code `k`, is the specification's column minimum. -/
private theorem v17_ix1 (x0 : (⟨S16x256x32x32, .f32⟩ : BufTy).Contents (Elt Ideal)) (x1 : (⟨S2048x256, .f32⟩ : BufTy).Contents (Elt Ideal))
    (k : Fin 2048) :
    val_main_v17 (F := Ideal) x0 x1 (ix1 k) = VqDist.colMin (val_main_v1 (F := Ideal) x0) x1 k := by
  have h : S16384x2048.Reduces [0] S2048 := by decide
  unfold val_main_v17
  rw [Host.reduce_eq_fold_single FloatOps.minimumf _ _ reducesTo_S16384x2048_S2048_d0 h h_S_, val_main_cst_3_apply,
    fold_minimumf_top]
  unfold VqDist.colMin
  refine iInf_congr fun n => ?_
  show val_main_v16 (F := Ideal) x0 x1 (h.lift (ix1 k) n) = _
  rw [lift_ix1, v16_ix2]
  rfl

/-- The reference's scalar result is the specification's mean of column minima. -/
theorem ref_loss (x0 : (⟨S16x256x32x32, .f32⟩ : BufTy).Contents (Elt Ideal)) (x1 : (⟨S2048x256, .f32⟩ : BufTy).Contents (Elt Ideal)) :
    val_main_v19 (F := Ideal) x0 x1 = fun _ => VqDist.loss (val_main_v1 (F := Ideal) x0) x1 := by
  funext i
  rw [val_main_v19_apply, val_main_v18_apply, val_main_cst_4_apply, val_main_cst_5_apply,
    ← Equiv.sum_comp (idxEquiv1 (n := 2048)).symm (val_main_v17 (F := Ideal) x0 x1)]
  unfold VqDist.loss
  simp only [Ideal.hostDivf_def, Ideal.ofBits_def]
  refine congrArg (fun s => Ideal.div (Ideal.ofBits .f32 0x00000000#32 + s) (Ideal.ofBits .f32 0x45000000#32)) ?_
  exact Finset.sum_congr rfl fun k _ => v17_ix1 x0 x1 k

end Cert.ReferenceIdeal.RefValue

end
-- ==== Proof.lean ====
/-
  The certificate: the kernel's program, its idealization and the reference all run to the end and leave their inputs
  unchanged, and at the extended reals the idealized kernel and the reference compute the same two results.

  Both programs first flatten the input (channel axis last, leading axes merged) into `zf : [16384, 256]`.  The first
  result is the [16384, 2048] matrix of clamped squared distances max(‖zf_n‖² + ‖e_k‖² − 2 zf_n·e_k, 0); the second is the
  mean over the 2048 codes of the least distance any row has to the code.  The kernel computes the matrix tile by tile
  (1024 x 1024 tiles: the inner products by a matrix product of the narrowed blocks, which at the extended reals is the
  plain sum of products) and keeps, per column block, a running minimum over the sixteen row tiles in a scratch row; the
  reference takes one matrix product and one minimum over all 16384 rows.  A minimum of per-tile infima is the infimum
  over all rows, and both programs then sum the 2048 minima from zero and divide by 2048, so no law that would need
  finite inputs is used: the precondition is never opened.

  The frames of the two kernel programs are the pipeline's frame run over a body proved point by point (Proof/KBody.lean,
  Proof/KIBody.lean); the reference's frame is its run with the results dropped; the idealization rewrote nothing, so
  there is nothing to preserve.
-/
import proofs.«107057_j38946763440842_1_alg».proof.Defs
import proofs.«107057_j38946763440842_1_alg».proof.Proof.Gen.Kernel
import proofs.«107057_j38946763440842_1_alg».proof.Proof.Gen.Kernel.Skeleton
import proofs.«107057_j38946763440842_1_alg».proof.Proof.Gen.Kernel.Launch
import proofs.«107057_j38946763440842_1_alg».proof.Proof.Gen.Kernel.Points
import proofs.«107057_j38946763440842_1_alg».proof.Proof.Gen.Kernel.Frame
import proofs.«107057_j38946763440842_1_alg».proof.Proof.Gen.KernelIdeal
import proofs.«107057_j38946763440842_1_alg».proof.Proof.Gen.KernelIdeal.Skeleton
import proofs.«107057_j38946763440842_1_alg».proof.Proof.Gen.KernelIdeal.Launch
import proofs.«107057_j38946763440842_1_alg».proof.Proof.Gen.KernelIdeal.Points
import proofs.«107057_j38946763440842_1_alg».proof.Proof.Gen.KernelIdeal.Frame
import proofs.«107057_j38946763440842_1_alg».proof.Proof.Gen.ReferenceIdeal
import proofs.«107057_j38946763440842_1_alg».proof.Proof.Gen.ReferenceIdeal.Run
import proofs.«107057_j38946763440842_1_alg».proof.Proof.Gen.ReferenceIdeal.Read
import proofs.«107057_j38946763440842_1_alg».proof.Proof.Gen.Pre_finite_inputs
import proofs.«107057_j38946763440842_1_alg».proof.Proof.KBody
import proofs.«107057_j38946763440842_1_alg».proof.Proof.KIBody
import proofs.«107057_j38946763440842_1_alg».proof.Proof.KHost
import proofs.«107057_j38946763440842_1_alg».proof.Proof.KFinal
import proofs.«107057_j38946763440842_1_alg».proof.Proof.RefIsSpec
import Idealize.ShloMosaic.Adequacy
import Idealize.ShloMosaic.Init

set_option maxRecDepth 16384

noncomputable section

namespace Cert.Proof

open Idealize.ShloMosaic Idealize.ShloMosaic.TcCoe Idealize.SL.Sem

/-! ## The idealized kernel's run, with its two results named -/

section KernelRun

open Cert.KernelIdeal Cert.KernelIdeal.Gen Cert.KernelIdeal.Body Cert.KernelIdeal.Blocks

variable (m : (ℓ : Loc nD τ sig) → Buf (Elt Ideal) ℓ) (ρ : Dev nD → PrngReg)

/-- Every execution of the idealized kernel's program ends with the distance matrix of the flattened input and the
    codebook in its first result, the mean of the column minima in its second, and its arguments as launched. -/
theorem kernel_run :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v2_0) = VqDist.distArr (zarr m c) (earr m c)
      ∧ r.2.mem ((c.tc : Thread nD τ).loc main_v4) = (fun _ => VqDist.loss (zarr m c) (earr m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 2).trans (Cert.KernelIdeal.Final.final2 m c),
     ((h c).2 main_v4 (Pipeline.mem_restRefs_of main_v4 (by decide) (by decide))).trans
        (Cert.KernelIdeal.HostOps.tail_v4 m (dats m) c (fun k => VqDist.colMin (zarr m c) (earr m c) k)
          (fun k => Cert.KernelIdeal.Final.final3 m c k)),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main (F := Ideal) m ρ)

end KernelRun

/-! ## The claims -/

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote no operation of the kernel. -/
theorem preserves : Cert.preserves_Kernel_KernelIdeal := trivial

/-- From memories that agree on the two arguments, the idealized kernel and the reference end with the same distance
    matrix and the same mean of column minima: each side's results are the specification's functions of the flattened
    input and the codebook, and the two flattened inputs are one term of the shared argument. -/
theorem algebraic : Cert.algebraic_KernelIdeal_ReferenceIdeal := by
  intro m ρ m' ρ' _ hagree
  refine ⟨fun c => VqDist.distArr (Cert.KernelIdeal.Blocks.zarr m c) (Cert.KernelIdeal.Blocks.earr m c),
    fun c => (fun _ => VqDist.loss (Cert.KernelIdeal.Blocks.zarr m c) (Cert.KernelIdeal.Blocks.earr m c)), kernel_run m ρ, ?_⟩
  refine (θ_run Cert.ReferenceIdeal.defs _ _).mono (fun r h c => ⟨(h c).1.trans ?_, (h c).2.1.trans ?_, (h c).2.2.1, (h c).2.2.2⟩)
    (Cert.ReferenceIdeal.Value.run (F := Ideal) m' ρ')
  · rw [(hagree c).1, (hagree c).2]
    exact (Cert.ReferenceIdeal.Read.val_main_v16_eq _ _).trans ((Cert.ReferenceIdeal.RefValue.ref_dist _ _).trans
      (congrArg₂ VqDist.distArr (Cert.KernelIdeal.HostOps.V_main_v1 m c).symm (Cert.KernelIdeal.Gen.V_main_arg1 m c).symm))
  · rw [(hagree c).1, (hagree c).2]
    exact (Cert.ReferenceIdeal.Read.val_main_v19_eq _ _).trans ((Cert.ReferenceIdeal.RefValue.ref_loss _ _).trans
      (congrArg₂ (fun zf e => (fun _ => VqDist.loss zf e)) (Cert.KernelIdeal.HostOps.V_main_v1 m c).symm (Cert.KernelIdeal.Gen.V_main_arg1 m c).symm))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
